-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S8x3 .f32) (main_arg9 : FVec F S3 .f32) (main_v33 : IVec S_ 1) : IVec S_ 1 :=
  let main_v34 : FVec F S8x3 .f32 := Host.absf main_arg8
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S8 .f32) (main_arg6 : FVec F S8x8 .f32) (main_arg7 : FVec F S8 .f32) (main_arg8 : FVec F S8x3 .f32) (main_arg9 : FVec F S3 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg6
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S2000000x2 .f32) (main_arg1 : IVec S4000000x3 32) (main_arg2 : FVec F S6x8 .f32) (main_arg3 : FVec F S8 .f32) (main_arg4 : FVec F S8x8 .f32) (main_arg5 : FVec F S8 .f32) (main_arg6 : FVec F S8x8 .f32) (main_arg7 : FVec F S8 .f32) (main_arg8 : FVec F S8x3 .f32) (main_arg9 : FVec F S3 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S6x8 .f32 := Host.absf main_arg2
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg4
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg5 main_arg6 main_arg7 main_arg8 main_arg9 main_v13 main_v16
-- ==== Kernel.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S4000000x1 : Shape := ⟨2, ![4000000, 1]⟩
abbrev S4000000 : Shape := ⟨1, ![4000000]⟩
abbrev S2000000x1 : Shape := ⟨2, ![2000000, 1]⟩
abbrev S2000000 : Shape := ⟨1, ![2000000]⟩
abbrev S_ : Shape := ⟨0, ![]⟩
abbrev S1x4000000 : Shape := ⟨2, ![1, 4000000]⟩
abbrev S6x4000000 : Shape := ⟨2, ![6, 4000000]⟩
abbrev S8x6 : Shape := ⟨2, ![8, 6]⟩
abbrev S3x8 : Shape := ⟨2, ![3, 8]⟩
abbrev S8x1 : Shape := ⟨2, ![8, 1]⟩
abbrev S3x1 : Shape := ⟨2, ![3, 1]⟩
abbrev S3x4000000 : Shape := ⟨2, ![3, 4000000]⟩
abbrev S6x80000 : Shape := ⟨2, ![6, 80000]⟩
abbrev S3x80000 : Shape := ⟨2, ![3, 80000]⟩
abbrev S8x80000 : Shape := ⟨2, ![8, 80000]⟩
abbrev S12000000 : Shape := ⟨1, ![12000000]⟩
abbrev S12000000x1 : Shape := ⟨2, ![12000000, 1]⟩

abbrev nBuf : Space → Nat
  | .hbm => 96
  | .vmem => 12
  | .smem => 0
  | _ => 0

abbrev bufTy : (tb : Table) → Fin (tcTables nBuf tb) → BufTy
  | .hbm, ⟨0, _⟩ => ⟨S2000000x2, .f32⟩
  | .hbm, ⟨1, _⟩ => ⟨S4000000x3, .i32⟩
  | .hbm, ⟨2, _⟩ => ⟨S6x8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x3, .f32⟩
  | .hbm, ⟨9, _⟩ => ⟨S3, .f32⟩
  | .hbm, ⟨10, _⟩ => ⟨S4000000x1, .i32⟩
  | .hbm, ⟨11, _⟩ => ⟨S4000000, .i32⟩
  | .hbm, ⟨12, _⟩ => ⟨S4000000x1, .i32⟩
  | .hbm, ⟨13, _⟩ => ⟨S4000000, .i32⟩
  | .hbm, ⟨14, _⟩ => ⟨S4000000x1, .i32⟩
  | .hbm, ⟨15, _⟩ => ⟨S4000000, .i32⟩
  | .hbm, ⟨16, _⟩ => ⟨S2000000x1, .f32⟩
  | .hbm, ⟨17, _⟩ => ⟨S2000000, .f32⟩
  | .hbm, ⟨18, _⟩ => ⟨S2000000x1, .f32⟩
  | .hbm, ⟨19, _⟩ => ⟨S2000000, .f32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000, .f32⟩
  | .hbm, ⟨29, _⟩ => ⟨S_, .i32⟩
  | .hbm, ⟨30, _⟩ => ⟨S4000000, .i32⟩
  | .hbm, ⟨31, _⟩ => ⟨S4000000, .i1⟩
  | .hbm, ⟨32, _⟩ => ⟨S_, .i32⟩
  | .hbm, ⟨33, _⟩ => ⟨S4000000, .i32⟩
  | .hbm, ⟨34, _⟩ => ⟨S4000000, .i32⟩
  | .hbm, ⟨35, _⟩ => ⟨S4000000, .i32⟩
  | .hbm, ⟨36, _⟩ => ⟨S4000000x1, .i32⟩
  | .hbm, ⟨37, _⟩ => ⟨S4000000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000, .f32⟩
  | .hbm, ⟨56, _⟩ => ⟨S_, .i32⟩
  | .hbm, ⟨57, _⟩ => ⟨S4000000, .i32⟩
  | .hbm, ⟨58, _⟩ => ⟨S4000000, .i1⟩
  | .hbm, ⟨59, _⟩ => ⟨S_, .i32⟩
  | .hbm, ⟨60, _⟩ => ⟨S4000000, .i32⟩
  | .hbm, ⟨61, _⟩ => ⟨S4000000, .i32⟩
  | .hbm, ⟨62, _⟩ => ⟨S4000000, .i32⟩
  | .hbm, ⟨63, _⟩ => ⟨S4000000x1, .i32⟩
  | .hbm, ⟨64, _⟩ => ⟨S4000000, .f32⟩
  | .hbm, ⟨65, _⟩ => ⟨S_, .i32⟩
  | .hbm, ⟨66, _⟩ => ⟨S4000000, .i32⟩
  | .hbm, ⟨67, _⟩ => ⟨S4000000, .i1⟩
  | .hbm, ⟨68, _⟩ => ⟨S_, .i32⟩
  | .hbm, ⟨69, _⟩ => ⟨S4000000, .i32⟩
  | .hbm, ⟨70, _⟩ => ⟨S4000000, .i32⟩
  | .hbm, ⟨71, _⟩ => ⟨S4000000, .i32⟩
  | .hbm, ⟨72, _⟩ => ⟨S4000000x1, .i32⟩
  | .hbm, ⟨73, _⟩ => ⟨S4000000, .f32⟩
  | .hbm, ⟨74, _⟩ => ⟨S1x4000000, .f32⟩
  | .hbm, ⟨75, _⟩ => ⟨S1x4000000, .f32⟩
  | .hbm, ⟨76, _⟩ => ⟨S1x4000000, .f32⟩
  | .hbm, ⟨77, _⟩ => ⟨S1x4000000, .f32⟩
  | .hbm, ⟨78, _⟩ => ⟨S1x4000000, .f32⟩
  | .hbm, ⟨79, _⟩ => ⟨S1x4000000, .f32⟩
  | .hbm, ⟨80, _⟩ => ⟨S6x4000000, .f32⟩
  | .hbm, ⟨81, _⟩ => ⟨S8x6, .f32⟩
  | .hbm, ⟨82, _⟩ => ⟨S8x8, .f32⟩
  | .hbm, ⟨83, _⟩ => ⟨S8x8, .f32⟩
  | .hbm, ⟨84, _⟩ => ⟨S3x8, .f32⟩
  | .hbm, ⟨85, _⟩ => ⟨S8x1, .f32⟩
  | .hbm, ⟨86, _⟩ => ⟨S8x1, .f32⟩
  | .hbm, ⟨87, _⟩ => ⟨S8x1, .f32⟩
  | .hbm, ⟨88, _⟩ => ⟨S3x1, .f32⟩
  | .hbm, ⟨89, _⟩ => ⟨S3x4000000, .f32⟩
  | .hbm, ⟨90, _⟩ => ⟨S12000000, .i32⟩
  | .hbm, ⟨91, _⟩ => ⟨S12000000, .f32⟩
  | .hbm, ⟨92, _⟩ => ⟨S_, .f32⟩
  | .hbm, ⟨93, _⟩ => ⟨S2000000, .f32⟩
  | .hbm, ⟨94, _⟩ => ⟨S12000000x1, .i32⟩
  | .hbm, ⟨95, _⟩ => ⟨S2000000, .f32⟩
  | .local _ .vmem, ⟨0, _⟩ => ⟨S6x80000, .f32⟩
  | .local _ .vmem, ⟨1, _⟩ => ⟨S6x80000, .f32⟩
  | .local _ .vmem, ⟨2, _⟩ => ⟨S8x6, .f32⟩
  | .local _ .vmem, ⟨3, _⟩ => ⟨S8x1, .f32⟩
  | .local _ .vmem, ⟨4, _⟩ => ⟨S8x8, .f32⟩
  | .local _ .vmem, ⟨5, _⟩ => ⟨S8x1, .f32⟩
  | .local _ .vmem, ⟨6, _⟩ => ⟨S8x8, .f32⟩
  | .local _ .vmem, ⟨7, _⟩ => ⟨S8x1, .f32⟩
  | .local _ .vmem, ⟨8, _⟩ => ⟨S3x8, .f32⟩
  | .local _ .vmem, ⟨9, _⟩ => ⟨S3x1, .f32⟩
  | .local _ .vmem, ⟨10, _⟩ => ⟨S3x80000, .f32⟩
  | .local _ .vmem, ⟨11, _⟩ => ⟨S3x80000, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x80000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000_S1x4000000_1 : S4000000.BroadcastsInDim S1x4000000 (![1] : Fin 1 → Fin S1x4000000.rank)
  concatenates_S1x4000000_S1x4000000_S1x4000000_S1x4000000_S1x4000000_S1x4000000_S6x4000000_d0 : Shape.Concatenates [S1x4000000, S1x4000000, S1x4000000, S1x4000000, S1x4000000, S1x4000000] S6x4000000 0
  transposes_S6x8_S8x6_1_0 : S6x8.Transposes [1, 0] S8x6
  transposes_S8x8_S8x8_1_0 : S8x8.Transposes [1, 0] S8x8
  transposes_S8x3_S3x8_1_0 : S8x3.Transposes [1, 0] S3x8
  shapeCasts_S8_S8x1 : S8.ShapeCasts S8x1
  shapeCasts_S3_S3x1 : S3.ShapeCasts S3x1
  inb_S6x80000_S6x80000_0_0 : ∀ a, (![0, 0] : Fin 2 → Nat) a + S6x80000.size a ≤ S6x80000.size a
  h_S6x80000 : 0 < S6x80000.numel
  shapeCasts_S6x80000_S6x80000 : S6x80000.ShapeCasts S6x80000
  bitsLt_bf16_f32 : FTy.bits .bf16 < FTy.bits .f32
  inb_S8x6_S8x6_0_0 : ∀ a, (![0, 0] : Fin 2 → Nat) a + S8x6.size a ≤ S8x6.size a
  h_S8x6 : 0 < S8x6.numel
  shapeCasts_S8x6_S8x6 : S8x6.ShapeCasts S8x6
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x80000 : S8x1.Broadcasts S8x80000
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x80000 : S3x1.Broadcasts S3x80000
  inb_S3x80000_S3x80000_0_0 : ∀ a, (![0, 0] : Fin 2 → Nat) a + S3x80000.size a ≤ S3x80000.size a
  h_S3x80000 : 0 < S3x80000.numel
  concatenates_S4000000_S4000000_S4000000_S12000000_d0 : Shape.Concatenates [S4000000, S4000000, S4000000] S12000000 0
  shapeCasts_S3x4000000_S12000000 : S3x4000000.ShapeCasts S12000000
  bcast_S_S2000000 : S_.BroadcastsInDim S2000000 (![] : Fin 0 → Fin S2000000.rank)
  bcast_S12000000_S12000000x1_0 : S12000000.BroadcastsInDim S12000000x1 (![0] : Fin 1 → Fin S12000000x1.rank)
  gather_S2000000_S4000000x1_S4000000_n_0_n_n_0_1_1_wf : GatherDims.WF S2000000 S4000000x1 S4000000 [] [0] [] [0] [] 1 ![1]
  dot_S8x6_S6x80000_S8x80000_1_0_0_1_n_n_wf : DotDims.WF S8x6 S6x80000 S8x80000 [1] [0] [0] [1] [] []
  dot_S8x8_S8x80000_S8x80000_1_0_0_1_n_n_wf : DotDims.WF S8x8 S8x80000 S8x80000 [1] [0] [0] [1] [] []
  dot_S3x8_S8x80000_S3x80000_1_0_0_1_n_n_wf : DotDims.WF S3x8 S8x80000 S3x80000 [1] [0] [0] [1] [] []
  scatter_S2000000_S12000000x1_S12000000_n_0_0_1_wf : ScatterDims.WF S2000000 S12000000x1 S12000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x80000.size a ≤ S6x4000000.size a
  hwx0_0 : ∀ i : grid0.Coords, EltTy.bits .f32 = 32 ∨ (Rect.block (s := S6x4000000) S6x80000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x6.size a ≤ S8x6.size a
  hwx0_1 : ∀ i : grid0.Coords, EltTy.bits .f32 = 32 ∨ (Rect.block (s := S8x6) S8x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x8.size a ≤ S3x8.size a
  hwx0_7 : ∀ i : grid0.Coords, EltTy.bits .f32 = 32 ∨ (Rect.block (s := S3x8) S3x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x80000.size a ≤ S3x4000000.size a
  hwx0_9 : ∀ i : grid0.Coords, EltTy.bits .f32 = 32 ∨ (Rect.block (s := S3x4000000) S3x80000.size (cc0_transform_9 i) (hinb0_9 i)).WholeWords (EltTy.packing .f32)

variable [Facts₀]

def gather_S2000000_S4000000x1_S4000000_n_0_n_n_0_1_1 : GatherDims S2000000 S4000000x1 S4000000 where
  offsetDims := []
  collapsedSliceDims := [0]
  operandBatchingDims := []
  startIndicesBatchingDims := []
  startIndexMap := [0]
  indexVectorDim := 1
  sliceSizes := ![1]
  wf := gather_S2000000_S4000000x1_S4000000_n_0_n_n_0_1_1_wf
def dot_S8x6_S6x80000_S8x80000_1_0_0_1_n_n : DotDims S8x6 S6x80000 S8x80000 where
  lhsContracting := [1]
  rhsContracting := [0]
  lhsNonContracting := [0]
  rhsNonContracting := [1]
  lhsBatch := []
  rhsBatch := []
  wf := dot_S8x6_S6x80000_S8x80000_1_0_0_1_n_n_wf
def dot_S8x8_S8x80000_S8x80000_1_0_0_1_n_n : DotDims S8x8 S8x80000 S8x80000 where
  lhsContracting := [1]
  rhsContracting := [0]
  lhsNonContracting := [0]
  rhsNonContracting := [1]
  lhsBatch := []
  rhsBatch := []
  wf := dot_S8x8_S8x80000_S8x80000_1_0_0_1_n_n_wf
def dot_S3x8_S8x80000_S3x80000_1_0_0_1_n_n : DotDims S3x8 S8x80000 S3x80000 where
  lhsContracting := [1]
  rhsContracting := [0]
  lhsNonContracting := [0]
  rhsNonContracting := [1]
  lhsBatch := []
  rhsBatch := []
  wf := dot_S3x8_S8x80000_S3x80000_1_0_0_1_n_n_wf
def scatter_S2000000_S12000000x1_S12000000_n_0_0_1 : ScatterDims S2000000 S12000000x1 S12000000 where
  updateWindowDims := []
  insertedWindowDims := [0]
  scatterDimsToOperandDims := [0]
  indexVectorDim := 1
  wf := scatter_S2000000_S12000000x1_S12000000_n_0_0_1_wf

abbrev win0_0 : Pipeline.Window sig grid0 :=
  Pipeline.Window.ofSpec (Memref.whole main_v58) S6x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S8x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v62) S3x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v66) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v67) S3x80000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2000000x2 : Shape := ⟨2, ![2000000, 2]⟩
abbrev S4000000x3 : Shape := ⟨2, ![4000000, 3]⟩
abbrev S6x8 : Shape := ⟨2, ![6, 8]⟩
abbrev S8 : Shape := ⟨1, ![8]⟩
abbrev S8x8 : Shape := ⟨2, ![8, 8]⟩
abbrev S8x3 : Shape := ⟨2, ![8, 3]⟩
abbrev S3 : Shape := ⟨1, ![3]⟩
abbrev S_ : Shape := ⟨0, ![]⟩
abbrev S4000000x3x1 : Shape := ⟨3, ![4000000, 3, 1]⟩
abbrev S4000000x3x2 : Shape := ⟨3, ![4000000, 3, 2]⟩
abbrev S4000000x6 : Shape := ⟨2, ![4000000, 6]⟩
abbrev S4000000x8 : Shape := ⟨2, ![4000000, 8]⟩
abbrev S1x8 : Shape := ⟨2, ![1, 8]⟩
abbrev S1x3 : Shape := ⟨2, ![1, 3]⟩
abbrev S12000000 : Shape := ⟨1, ![12000000]⟩
abbrev S2000000 : Shape := ⟨1, ![2000000]⟩
abbrev S12000000x1 : Shape := ⟨2, ![12000000, 1]⟩

abbrev nBuf : Space → Nat
  | .hbm => 74
  | .vmem => 0
  | .smem => 0
  | _ => 0

abbrev bufTy : (tb : Table) → Fin (tcTables nBuf tb) → BufTy
  | .hbm, ⟨0, _⟩ => ⟨S2000000x2, .f32⟩
  | .hbm, ⟨1, _⟩ => ⟨S4000000x3, .i32⟩
  | .hbm, ⟨2, _⟩ => ⟨S6x8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8x3, .f32⟩
  | .hbm, ⟨9, _⟩ => ⟨S3, .f32⟩
  | .hbm, ⟨10, _⟩ => ⟨S_, .i32⟩
  | .hbm, ⟨11, _⟩ => ⟨S4000000x3, .i32⟩
  | .hbm, ⟨12, _⟩ => ⟨S4000000x3, .i1⟩
  | .hbm, ⟨13, _⟩ => ⟨S_, .i32⟩
  | .hbm, ⟨14, _⟩ => ⟨S4000000x3, .i32⟩
  | .hbm, ⟨15, _⟩ => ⟨S4000000x3, .i32⟩
  | .hbm, ⟨16, _⟩ => ⟨S4000000x3, .i32⟩
  | .hbm, ⟨17, _⟩ => ⟨S4000000x3x1, .i32⟩
  | .hbm, ⟨18, _⟩ => ⟨S4000000x3x2, .f32⟩
  | .hbm, ⟨19, _⟩ => ⟨S4000000x6, .f32⟩
  | .hbm, ⟨20, _⟩ => ⟨S4000000x8, .f32⟩
  | .hbm, ⟨21, _⟩ => ⟨S1x8, .f32⟩
  | .hbm, ⟨22, _⟩ => ⟨S4000000x8, .f32⟩
  | .hbm, ⟨23, _⟩ => ⟨S4000000x8, .f32⟩
  | .hbm, ⟨24, _⟩ => ⟨S4000000x8, .f32⟩
  | .hbm, ⟨25, _⟩ => ⟨S4000000x8, .f32⟩
  | .hbm, ⟨26, _⟩ => ⟨S_, .f32⟩
  | .hbm, ⟨27, _⟩ => ⟨S4000000x8, .f32⟩
  | .hbm, ⟨28, _⟩ => ⟨S4000000x8, .f32⟩
  | .hbm, ⟨29, _⟩ => ⟨S_, .f32⟩
  | .hbm, ⟨30, _⟩ => ⟨S4000000x8, .f32⟩
  | .hbm, ⟨31, _⟩ => ⟨S4000000x8, .f32⟩
  | .hbm, ⟨32, _⟩ => ⟨S4000000x8, .f32⟩
  | .hbm, ⟨33, _⟩ => ⟨S1x8, .f32⟩
  | .hbm, ⟨34, _⟩ => ⟨S4000000x8, .f32⟩
  | .hbm, ⟨35, _⟩ => ⟨S4000000x8, .f32⟩
  | .hbm, ⟨36, _⟩ => ⟨S4000000x8, .f32⟩
  | .hbm, ⟨37, _⟩ => ⟨S4000000x8, .f32⟩
  | .hbm, ⟨38, _⟩ => ⟨S_, .f32⟩
  | .hbm, ⟨39, _⟩ => ⟨S4000000x8, .f32⟩
  | .hbm, ⟨40, _⟩ => ⟨S4000000x8, .f32⟩
  | .hbm, ⟨41, _⟩ => ⟨S_, .f32⟩
  | .hbm, ⟨42, _⟩ => ⟨S4000000x8, .f32⟩
  | .hbm, ⟨43, _⟩ => ⟨S4000000x8, .f32⟩
  | .hbm, ⟨44, _⟩ => ⟨S4000000x8, .f32⟩
  | .hbm, ⟨45, _⟩ => ⟨S1x8, .f32⟩
  | .hbm, ⟨46, _⟩ => ⟨S4000000x8, .f32⟩
  | .hbm, ⟨47, _⟩ => ⟨S4000000x8, .f32⟩
  | .hbm, ⟨48, _⟩ => ⟨S4000000x8, .f32⟩
  | .hbm, ⟨49, _⟩ => ⟨S4000000x8, .f32⟩
  | .hbm, ⟨50, _⟩ => ⟨S_, .f32⟩
  | .hbm, ⟨51, _⟩ => ⟨S4000000x8, .f32⟩
  | .hbm, ⟨52, _⟩ => ⟨S4000000x8, .f32⟩
  | .hbm, ⟨53, _⟩ => ⟨S_, .f32⟩
  | .hbm, ⟨54, _⟩ => ⟨S4000000x8, .f32⟩
  | .hbm, ⟨55, _⟩ => ⟨S4000000x8, .f32⟩
  | .hbm, ⟨56, _⟩ => ⟨S4000000x3, .f32⟩
  | .hbm, ⟨57, _⟩ => ⟨S1x3, .f32⟩
  | .hbm, ⟨58, _⟩ => ⟨S4000000x3, .f32⟩
  | .hbm, ⟨59, _⟩ => ⟨S4000000x3, .f32⟩
  | .hbm, ⟨60, _⟩ => ⟨S4000000x3, .f32⟩
  | .hbm, ⟨61, _⟩ => ⟨S4000000x3, .f32⟩
  | .hbm, ⟨62, _⟩ => ⟨S_, .f32⟩
  | .hbm, ⟨63, _⟩ => ⟨S4000000x3, .f32⟩
  | .hbm, ⟨64, _⟩ => ⟨S4000000x3, .f32⟩
  | .hbm, ⟨65, _⟩ => ⟨S_, .f32⟩
  | .hbm, ⟨66, _⟩ => ⟨S4000000x3, .f32⟩
  | .hbm, ⟨67, _⟩ => ⟨S4000000x3, .f32⟩
  | .hbm, ⟨68, _⟩ => ⟨S12000000, .f32⟩
  | .hbm, ⟨69, _⟩ => ⟨S12000000, .i32⟩
  | .hbm, ⟨70, _⟩ => ⟨S_, .f32⟩
  | .hbm, ⟨71, _⟩ => ⟨S2000000, .f32⟩
  | .hbm, ⟨72, _⟩ => ⟨S12000000x1, .i32⟩
  | .hbm, ⟨73, _⟩ => ⟨S2000000, .f32⟩
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  bcast_S4000000x3_S4000000x3x1_0_1 : S4000000x3.BroadcastsInDim S4000000x3x1 (![0, 1] : Fin 2 → Fin S4000000x3x1.rank)
  shapeCasts_S4000000x3x2_S4000000x6 : S4000000x3x2.ShapeCasts S4000000x6
  bcast_S8_S1x8_1 : S8.BroadcastsInDim S1x8 (![1] : Fin 1 → Fin S1x8.rank)
  bcast_S1x8_S4000000x8_0_1 : S1x8.BroadcastsInDim S4000000x8 (![0, 1] : Fin 2 → Fin S4000000x8.rank)
  bcast_S_S4000000x8 : S_.BroadcastsInDim S4000000x8 (![] : Fin 0 → Fin S4000000x8.rank)
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  shapeCasts_S4000000x3_S12000000 : S4000000x3.ShapeCasts S12000000
  bcast_S_S2000000 : S_.BroadcastsInDim S2000000 (![] : Fin 0 → Fin S2000000.rank)
  bcast_S12000000_S12000000x1_0 : S12000000.BroadcastsInDim S12000000x1 (![0] : Fin 1 → Fin S12000000x1.rank)
  gather_S2000000x2_S4000000x3x1_S4000000x3x2_2_0_n_n_0_2_12_wf : GatherDims.WF S2000000x2 S4000000x3x1 S4000000x3x2 [2] [0] [] [0] [] 2 ![1, 2]
  dot_S4000000x6_S6x8_S4000000x8_1_0_0_1_n_n_wf : DotDims.WF S4000000x6 S6x8 S4000000x8 [1] [0] [0] [1] [] []
  dot_S4000000x8_S8x8_S4000000x8_1_0_0_1_n_n_wf : DotDims.WF S4000000x8 S8x8 S4000000x8 [1] [0] [0] [1] [] []
  dot_S4000000x8_S8x3_S4000000x3_1_0_0_1_n_n_wf : DotDims.WF S4000000x8 S8x3 S4000000x3 [1] [0] [0] [1] [] []
  scatter_S2000000_S12000000x1_S12000000_n_0_0_1_wf : ScatterDims.WF S2000000 S12000000x1 S12000000 [] [0] [0] 1

variable [Facts₀]

def gather_S2000000x2_S4000000x3x1_S4000000x3x2_2_0_n_n_0_2_12 : GatherDims S2000000x2 S4000000x3x1 S4000000x3x2 where
  offsetDims := [2]
  collapsedSliceDims := [0]
  operandBatchingDims := []
  startIndicesBatchingDims := []
  startIndexMap := [0]
  indexVectorDim := 2
  sliceSizes := ![1, 2]
  wf := gather_S2000000x2_S4000000x3x1_S4000000x3x2_2_0_n_n_0_2_12_wf
def dot_S4000000x6_S6x8_S4000000x8_1_0_0_1_n_n : DotDims S4000000x6 S6x8 S4000000x8 where
  lhsContracting := [1]
  rhsContracting := [0]
  lhsNonContracting := [0]
  rhsNonContracting := [1]
  lhsBatch := []
  rhsBatch := []
  wf := dot_S4000000x6_S6x8_S4000000x8_1_0_0_1_n_n_wf
def dot_S4000000x8_S8x8_S4000000x8_1_0_0_1_n_n : DotDims S4000000x8 S8x8 S4000000x8 where
  lhsContracting := [1]
  rhsContracting := [0]
  lhsNonContracting := [0]
  rhsNonContracting := [1]
  lhsBatch := []
  rhsBatch := []
  wf := dot_S4000000x8_S8x8_S4000000x8_1_0_0_1_n_n_wf
def dot_S4000000x8_S8x3_S4000000x3_1_0_0_1_n_n : DotDims S4000000x8 S8x3 S4000000x3 where
  lhsContracting := [1]
  rhsContracting := [0]
  lhsNonContracting := [0]
  rhsNonContracting := [1]
  lhsBatch := []
  rhsBatch := []
  wf := dot_S4000000x8_S8x3_S4000000x3_1_0_0_1_n_n_wf
def scatter_S2000000_S12000000x1_S12000000_n_0_0_1 : ScatterDims S2000000 S12000000x1 S12000000 where
  updateWindowDims := []
  insertedWindowDims := [0]
  scatterDimsToOperandDims := [0]
  indexVectorDim := 1
  wf := scatter_S2000000_S12000000x1_S12000000_n_0_0_1_wf

class Facts : Prop extends Facts₀ where

variable [Facts]
-- ==== Proof.KFrame.lean ====
/-
  THE PROGRAM RUNS TO ITS END AND LEAVES ITS ARGUMENTS AS THEY WERE. @main is a stretch of host operations (slices,
  gathers, a six-piece concatenation, transposes, reshapes), one pipelined region over 50 grid points, and a second
  stretch of host operations (a three-piece concatenation, a reshape, a scatter-add). No host operation writes an
  argument array, and no window of the region is staged from one: every argument is found, and left, as launched.
  At each grid point the body loads its nine input blocks whole, loads and then overwrites its output block whole with
  one value computed from the input blocks, so the output's staging buffer ends holding that value (`out0_9`) whatever
  it held, and each input's buffer still holds its block. With those contents as the proof data the region's launch,
  fetch and write-back schedule is the library's, and the run ends with every array of the region at what the data say
  (`run_main`), the other buffers as the later host operations leave them.
-/
import proofs.«135624_j69853348102547_1_alg».proof.Proof.Gen.Kernel.Launch
import proofs.«135624_j69853348102547_1_alg».proof.Proof.Gen.Kernel.Skeleton
import proofs.«135624_j69853348102547_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents after the first stretch of host
    operations. -/
abbrev V0 (c : Dev nD) : Valuation τ sig (Elt F) := StableHlo.after (List.flatten [hostOps0]) (fun b => m (c, b))
/-- The same, read at a buffer of the TensorCore. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch, the region, and the region's continuation by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the region: each of its operations writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The ten argument arrays. -/
abbrev args : List (Ref sig .tc) :=
  [main_arg0, main_arg1, main_arg2, main_arg3, main_arg4, main_arg5, main_arg6, main_arg7, main_arg8, main_arg9]

set_option maxHeartbeats 8000000 in
/-- No operation of the first stretch writes an argument array: the region finds each as launched. -/
theorem V_arg (c : Dev nD) (b : Ref sig .tc) (hb : b ∈ args) : V m c b = m ((c : Thread nD τ).loc b) := by
  simp only [args, List.mem_cons, List.mem_nil_iff, or_false] at hb
  rcases hb with rfl | rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- Nor does the second stretch, and no argument is an array of the region: each ends as launched. -/
theorem W_arg (dats : (p : Fin _) → (c : Dev nD) → Dat τ (Elt F) Unit ℕ (UR sig nD τ) ℕ (cfgs p) c) (c : Dev nD)
    (b : Ref sig .tc) (hb : b ∈ args) :
    Pipeline.afterTail₀ cfgs dats 0 (V0 m) [hostOps1] c b = m ((c : Thread nD τ).loc b) := by
  have hV := V_arg m c b hb
  simp only [args, List.mem_cons, List.mem_nil_iff, or_false] at hb
  rcases hb with rfl | rfl | rfl | rfl | rfl | rfl | rfl | rfl | rfl | rfl
  all_goals
    unfold Pipeline.afterTail₀
    rw [StableHlo.after_of_forall_not_mem (b := Proc.devRef .tc _) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
        repeat' apply And.intro
        all_goals exact StableHlo.devRef_ne_of_ne (by decide))),
      Pipeline.withArrays_of_ne _ c (V0 m c) _ _ (by decide)]
    exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over the region-entry contents whose body leaves the
    block in place. One statement per input window, the window a literal. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from a run to the region's post -/

/-- From a run whose final state has every array of the region at the proof data's and every other unscoped buffer as
    the second stretch leaves it: the ten argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      ∀ b ∈ args, r.2.mem ((c.tc : Thread nD τ).loc b) = m ((c.tc : Thread nD τ).loc b)) :=
  (θ_run defs _ _).mono (fun _ h c b hb =>
    ((h c).2 b (by
      simp only [args, List.mem_cons, List.mem_nil_iff, or_false] at hb
      rcases hb with rfl | rfl | rfl | rfl | rfl | rfl | rfl | rfl | rfl | rfl
      all_goals exact Pipeline.mem_restRefs_of _ (by decide) (by decide))).trans (W_arg m dats c b hb)) h

/-! ## The body's accesses -/

abbrev r0_0 : Rect S6x80000 := Rect.unit (s := S6x80000) ![0, 0] S6x80000.size inb_S6x80000_S6x80000_0_0
abbrev r0_1 : Rect S8x6 := Rect.unit (s := S8x6) ![0, 0] S8x6.size inb_S8x6_S8x6_0_0
abbrev r0_2 : Rect S8x1 := Rect.unit (s := S8x1) ![0, 0] S8x1.size inb_S8x1_S8x1_0_0
abbrev r0_3 : Rect S8x8 := Rect.unit (s := S8x8) ![0, 0] S8x8.size inb_S8x8_S8x8_0_0
abbrev r0_7 : Rect S3x8 := Rect.unit (s := S3x8) ![0, 0] S3x8.size inb_S3x8_S3x8_0_0
abbrev r0_8 : Rect S3x1 := Rect.unit (s := S3x1) ![0, 0] S3x1.size inb_S3x1_S3x1_0_0
abbrev r0_9 : Rect S3x80000 := Rect.unit (s := S3x80000) ![0, 0] S3x80000.size inb_S3x80000_S3x80000_0_0

/-! ## What the body leaves in the output window's buffer -/

/-- The output's staging buffer after the body, from the nine input blocks: its one store, of the whole block. -/
def out0_9 (x0 : Vec F S6x80000 .f32) (x1 : Vec F S8x6 .f32) (x2 : Vec F S8x1 .f32) (x3 : Vec F S8x8 .f32)
    (x4 : Vec F S8x1 .f32) (x5 : Vec F S8x8 .f32) (x6 : Vec F S8x1 .f32) (x7 : Vec F S3x8 .f32) (x8 : Vec F S3x1 .f32) :
    Vec F S3x80000 .f32 :=
  View.canon [⟨r0_9, k0_pay1 (k0_pay2 (View.ld x0 r0_0) (View.ld x1 r0_1) (View.ld x2 r0_2) (View.ld x3 r0_3)
    (View.ld x4 r0_2) (View.ld x5 r0_3) (View.ld x6 r0_2) (View.ld x7 r0_7)) (View.ld x8 r0_8)⟩]

/-- The one store covers the buffer. -/
theorem cover0_9 (p0 : Vec F S3x80000 .f32) (y : S3x80000.Idx) :
    ∃ pc ∈ ([⟨r0_9, p0⟩] : List (View.Piece (Elt F) S3x80000 .f32)), y ∈ pc.1.set :=
  View.cover_of_tiled [⟨r0_9, p0⟩] S3x80000.size (by rfl) y

/-! ## The body's triple -/

set_option maxHeartbeats 4000000 in
/-- The body on whole staging memrefs, the inputs' at contents `xW` and the output's at anything, runs to a state
    holding the inputs' as they were and the output's at `out0_9` of the inputs'. -/
theorem sound_kernel (c : Dev nD) (E : Set ℕ) (i : grid0.Coords)
    (arg1 : Memref sig .tc .vmem S6x80000 .f32) (harg1 : arg1.IsWhole) (arg2 : Memref sig .tc .vmem S8x6 .f32) (harg2 : arg2.IsWhole)
    (arg3 : Memref sig .tc .vmem S8x1 .f32) (harg3 : arg3.IsWhole) (arg4 : Memref sig .tc .vmem S8x8 .f32) (harg4 : arg4.IsWhole)
    (arg5 : Memref sig .tc .vmem S8x1 .f32) (harg5 : arg5.IsWhole) (arg6 : Memref sig .tc .vmem S8x8 .f32) (harg6 : arg6.IsWhole)
    (arg7 : Memref sig .tc .vmem S8x1 .f32) (harg7 : arg7.IsWhole) (arg8 : Memref sig .tc .vmem S3x8 .f32) (harg8 : arg8.IsWhole)
    (arg9 : Memref sig .tc .vmem S3x1 .f32) (harg9 : arg9.IsWhole) (arg10 : Memref sig .tc .vmem S3x80000 .f32) (harg10 : arg10.IsWhole)
    (x0 : Vec F S6x80000 .f32) (x1 : Vec F S8x6 .f32) (x2 : Vec F S8x1 .f32) (x3 : Vec F S8x8 .f32)
    (x4 : Vec F S8x1 .f32) (x5 : Vec F S8x8 .f32) (x6 : Vec F S8x1 .f32) (x7 : Vec F S3x8 .f32) (x8 : Vec F S3x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out0_9 x0 x1 x2 x3 x4 x5 x6 x7 x8)) -∗ K ⟨⟩))
      ⊢ wp frame (wpE (defs₀ (F := F)) Variants.none c none) E
          (cc0__mlp_kernel_T i arg1 harg1 arg2 harg2 arg3 harg3 arg4 harg4 arg5 harg5 arg6 harg6 arg7 harg7 arg8 harg8 arg9 harg9 arg10 harg10) K := by
  simp only [cc0__mlp_kernel_T_eq_skeleton]; unfold cc0__mlp_kernel_T_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- On core `c`: the arrays as the region finds them; after the body at point `t` each input's buffer at its block
    and the output's at `out0_9` of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t)
        (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the scoped rest and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the proof data give and every other unscoped buffer as the second stretch of host
    operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution terminates and the ten argument arrays end as launched. -/
theorem frame : θ_run defs (onTc (τ := τ) (main (F := F))) ⟨m, fun _ => 0, ρ⟩ (fun r => ∀ c : Dev nD,
      ∀ b ∈ args, r.2.mem ((c.tc : Thread nD τ).loc b) = m ((c.tc : Thread nD τ).loc b)) :=
  frame_of m ρ (dats m) (run_main m ρ)

end Cert.Kernel.Frame

end
-- ==== Proof.KIFrame.lean ====
/-
  THE PROGRAM RUNS TO ITS END AND LEAVES ITS ARGUMENTS AS THEY WERE. @main is a stretch of host operations (slices,
  gathers, a six-piece concatenation, transposes, reshapes), one pipelined region over 50 grid points, and a second
  stretch of host operations (a three-piece concatenation, a reshape, a scatter-add). No host operation writes an
  argument array, and no window of the region is staged from one: every argument is found, and left, as launched.
  At each grid point the body loads its nine input blocks whole, loads and then overwrites its output block whole with
  one value computed from the input blocks, so the output's staging buffer ends holding that value (`out0_9`) whatever
  it held, and each input's buffer still holds its block. With those contents as the proof data the region's launch,
  fetch and write-back schedule is the library's, and the run ends with every array of the region at what the data say
  (`run_main`), the other buffers as the later host operations leave them.
-/
import proofs.«135624_j69853348102547_1_alg».proof.Proof.Gen.KernelIdeal.Launch
import proofs.«135624_j69853348102547_1_alg».proof.Proof.Gen.KernelIdeal.Skeleton
import proofs.«135624_j69853348102547_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents after the first stretch of host
    operations. -/
abbrev V0 (c : Dev nD) : Valuation τ sig (Elt F) := StableHlo.after (List.flatten [hostOps0]) (fun b => m (c, b))
/-- The same, read at a buffer of the TensorCore. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch, the region, and the region's continuation by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the region: each of its operations writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The ten argument arrays. -/
abbrev args : List (Ref sig .tc) :=
  [main_arg0, main_arg1, main_arg2, main_arg3, main_arg4, main_arg5, main_arg6, main_arg7, main_arg8, main_arg9]

set_option maxHeartbeats 8000000 in
/-- No operation of the first stretch writes an argument array: the region finds each as launched. -/
theorem V_arg (c : Dev nD) (b : Ref sig .tc) (hb : b ∈ args) : V m c b = m ((c : Thread nD τ).loc b) := by
  simp only [args, List.mem_cons, List.mem_nil_iff, or_false] at hb
  rcases hb with rfl | rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- Nor does the second stretch, and no argument is an array of the region: each ends as launched. -/
theorem W_arg (dats : (p : Fin _) → (c : Dev nD) → Dat τ (Elt F) Unit ℕ (UR sig nD τ) ℕ (cfgs p) c) (c : Dev nD)
    (b : Ref sig .tc) (hb : b ∈ args) :
    Pipeline.afterTail₀ cfgs dats 0 (V0 m) [hostOps1] c b = m ((c : Thread nD τ).loc b) := by
  have hV := V_arg m c b hb
  simp only [args, List.mem_cons, List.mem_nil_iff, or_false] at hb
  rcases hb with rfl | rfl | rfl | rfl | rfl | rfl | rfl | rfl | rfl | rfl
  all_goals
    unfold Pipeline.afterTail₀
    rw [StableHlo.after_of_forall_not_mem (b := Proc.devRef .tc _) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
        repeat' apply And.intro
        all_goals exact StableHlo.devRef_ne_of_ne (by decide))),
      Pipeline.withArrays_of_ne _ c (V0 m c) _ _ (by decide)]
    exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data over the region-entry contents whose body leaves the
    block in place. One statement per input window, the window a literal. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from a run to the region's post -/

/-- From a run whose final state has every array of the region at the proof data's and every other unscoped buffer as
    the second stretch leaves it: the ten argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      ∀ b ∈ args, r.2.mem ((c.tc : Thread nD τ).loc b) = m ((c.tc : Thread nD τ).loc b)) :=
  (θ_run defs _ _).mono (fun _ h c b hb =>
    ((h c).2 b (by
      simp only [args, List.mem_cons, List.mem_nil_iff, or_false] at hb
      rcases hb with rfl | rfl | rfl | rfl | rfl | rfl | rfl | rfl | rfl | rfl
      all_goals exact Pipeline.mem_restRefs_of _ (by decide) (by decide))).trans (W_arg m dats c b hb)) h

/-! ## The body's accesses -/

abbrev r0_0 : Rect S6x80000 := Rect.unit (s := S6x80000) ![0, 0] S6x80000.size inb_S6x80000_S6x80000_0_0
abbrev r0_1 : Rect S8x6 := Rect.unit (s := S8x6) ![0, 0] S8x6.size inb_S8x6_S8x6_0_0
abbrev r0_2 : Rect S8x1 := Rect.unit (s := S8x1) ![0, 0] S8x1.size inb_S8x1_S8x1_0_0
abbrev r0_3 : Rect S8x8 := Rect.unit (s := S8x8) ![0, 0] S8x8.size inb_S8x8_S8x8_0_0
abbrev r0_7 : Rect S3x8 := Rect.unit (s := S3x8) ![0, 0] S3x8.size inb_S3x8_S3x8_0_0
abbrev r0_8 : Rect S3x1 := Rect.unit (s := S3x1) ![0, 0] S3x1.size inb_S3x1_S3x1_0_0
abbrev r0_9 : Rect S3x80000 := Rect.unit (s := S3x80000) ![0, 0] S3x80000.size inb_S3x80000_S3x80000_0_0

/-! ## What the body leaves in the output window's buffer -/

/-- The output's staging buffer after the body, from the nine input blocks: its one store, of the whole block. -/
def out0_9 (x0 : Vec F S6x80000 .f32) (x1 : Vec F S8x6 .f32) (x2 : Vec F S8x1 .f32) (x3 : Vec F S8x8 .f32)
    (x4 : Vec F S8x1 .f32) (x5 : Vec F S8x8 .f32) (x6 : Vec F S8x1 .f32) (x7 : Vec F S3x8 .f32) (x8 : Vec F S3x1 .f32) :
    Vec F S3x80000 .f32 :=
  View.canon [⟨r0_9, k0_pay1 (k0_pay2 (View.ld x0 r0_0) (View.ld x1 r0_1) (View.ld x2 r0_2) (View.ld x3 r0_3)
    (View.ld x4 r0_2) (View.ld x5 r0_3) (View.ld x6 r0_2) (View.ld x7 r0_7)) (View.ld x8 r0_8)⟩]

/-- The one store covers the buffer. -/
theorem cover0_9 (p0 : Vec F S3x80000 .f32) (y : S3x80000.Idx) :
    ∃ pc ∈ ([⟨r0_9, p0⟩] : List (View.Piece (Elt F) S3x80000 .f32)), y ∈ pc.1.set :=
  View.cover_of_tiled [⟨r0_9, p0⟩] S3x80000.size (by rfl) y

/-! ## The body's triple -/

set_option maxHeartbeats 4000000 in
/-- The body on whole staging memrefs, the inputs' at contents `xW` and the output's at anything, runs to a state
    holding the inputs' as they were and the output's at `out0_9` of the inputs'. -/
theorem sound_kernel (c : Dev nD) (E : Set ℕ) (i : grid0.Coords)
    (arg1 : Memref sig .tc .vmem S6x80000 .f32) (harg1 : arg1.IsWhole) (arg2 : Memref sig .tc .vmem S8x6 .f32) (harg2 : arg2.IsWhole)
    (arg3 : Memref sig .tc .vmem S8x1 .f32) (harg3 : arg3.IsWhole) (arg4 : Memref sig .tc .vmem S8x8 .f32) (harg4 : arg4.IsWhole)
    (arg5 : Memref sig .tc .vmem S8x1 .f32) (harg5 : arg5.IsWhole) (arg6 : Memref sig .tc .vmem S8x8 .f32) (harg6 : arg6.IsWhole)
    (arg7 : Memref sig .tc .vmem S8x1 .f32) (harg7 : arg7.IsWhole) (arg8 : Memref sig .tc .vmem S3x8 .f32) (harg8 : arg8.IsWhole)
    (arg9 : Memref sig .tc .vmem S3x1 .f32) (harg9 : arg9.IsWhole) (arg10 : Memref sig .tc .vmem S3x80000 .f32) (harg10 : arg10.IsWhole)
    (x0 : Vec F S6x80000 .f32) (x1 : Vec F S8x6 .f32) (x2 : Vec F S8x1 .f32) (x3 : Vec F S8x8 .f32)
    (x4 : Vec F S8x1 .f32) (x5 : Vec F S8x8 .f32) (x6 : Vec F S8x1 .f32) (x7 : Vec F S3x8 .f32) (x8 : Vec F S3x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out0_9 x0 x1 x2 x3 x4 x5 x6 x7 x8)) -∗ K ⟨⟩))
      ⊢ wp frame (wpE (defs₀ (F := F)) Variants.none c none) E
          (cc0__mlp_kernel_T i arg1 harg1 arg2 harg2 arg3 harg3 arg4 harg4 arg5 harg5 arg6 harg6 arg7 harg7 arg8 harg8 arg9 harg9 arg10 harg10) K := by
  simp only [cc0__mlp_kernel_T_eq_skeleton]; unfold cc0__mlp_kernel_T_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- On core `c`: the arrays as the region finds them; after the body at point `t` each input's buffer at its block
    and the output's at `out0_9` of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t)
        (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the scoped rest and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the proof data give and every other unscoped buffer as the second stretch of host
    operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution terminates and the ten argument arrays end as launched. -/
theorem frame : θ_run defs (onTc (τ := τ) (main (F := F))) ⟨m, fun _ => 0, ρ⟩ (fun r => ∀ c : Dev nD,
      ∀ b ∈ args, r.2.mem ((c.tc : Thread nD τ).loc b) = m ((c.tc : Thread nD τ).loc b)) :=
  frame_of m ρ (dats m) (run_main m ρ)

end Cert.KernelIdeal.Frame

end
-- ==== Proof.Spec.lean ====
/-
  THE FUNCTION BOTH PROGRAMS COMPUTE. Every simplex `e` names three vertices by the words of its adjacency row. A word
  read as an index into the vertex table wraps once when negative (the table's length is added) and is then clamped into
  the table; the six features of the simplex are the two coordinates of its three vertices, vertex-major. A dense layer
  sends a feature vector `h` to `logistic (∑ k, h k * W k j + b j)`; four of them (6 → 8 → 8 → 8 → 3) give the simplex
  three weights, one per corner. Vertex `n` receives, on top of the zero it starts from, the weight of every corner
  `(e, k)` whose adjacency word READ SIGNED (not wrapped, not clamped) is `n`: a corner whose word is negative or past the
  table lands nowhere. The order in which the corners are enumerated (corner-major or simplex-major) does not change the
  sum, which is taken in a commutative monoid; the two enumerations are `sum_cornerMajor` and `sum_simplexMajor`.
-/
import Idealize.ShloMosaic.PureOps.Ideal
import Idealize.ShloMosaic.Lib.ValueIdx

noncomputable section

open scoped BigOperators

namespace Cert.Spec

open Idealize.ShloMosaic Idealize.ShloMosaic.ValueIdx

/-- The vertex an adjacency word names when it is used to READ the vertex table: a negative word has the table's length
    added once, and the result, read signed, is clamped into the table. -/
def vert (a : BitVec 32) : Fin 2000000 :=
  ⟨min (Scalar.select (IntOp.cmpi .slt a 0#32) (IntOp.addi a 2000000#32) a).toInt.toNat 1999999, by omega⟩

/-- Feature `f` of simplex `e`: coordinate `f % 2` of its vertex `f / 2`. -/
def feat (pts : (⟨2, ![2000000, 2]⟩ : Shape).Idx → EReal) (adj : (⟨2, ![4000000, 3]⟩ : Shape).Idx → BitVec 32)
    (e : Fin 4000000) (f : Fin 6) : EReal :=
  pts (ix2 (vert (adj (ix2 e (⟨f.val / 2, by omega⟩ : Fin 3)))) (⟨f.val % 2, by omega⟩ : Fin 2))

/-- One dense layer with the logistic activation. -/
def dense {K M : Nat} (W : Fin K → Fin M → EReal) (b : Fin M → EReal) (h : Fin K → EReal) (j : Fin M) : EReal :=
  Ideal.logistic ((∑ k : Fin K, h k * W k j) + b j)

/-- The four layers, 6 → 8 → 8 → 8 → 3. -/
def mlp (W1 : Fin 6 → Fin 8 → EReal) (b1 : Fin 8 → EReal) (W2 : Fin 8 → Fin 8 → EReal) (b2 : Fin 8 → EReal)
    (W3 : Fin 8 → Fin 8 → EReal) (b3 : Fin 8 → EReal) (W4 : Fin 8 → Fin 3 → EReal) (b4 : Fin 3 → EReal)
    (x : Fin 6 → EReal) : Fin 3 → EReal :=
  dense W4 b4 (dense W3 b3 (dense W2 b2 (dense W1 b1 x)))

/-- The weight of corner `k` of simplex `e`, from the argument arrays. -/
def weight (pts : (⟨2, ![2000000, 2]⟩ : Shape).Idx → EReal) (adj : (⟨2, ![4000000, 3]⟩ : Shape).Idx → BitVec 32)
    (W1 : (⟨2, ![6, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 8]⟩ : Shape).Idx → EReal) (b3 : (⟨1, ![8]⟩ : Shape).Idx → EReal)
    (W4 : (⟨2, ![8, 3]⟩ : Shape).Idx → EReal) (b4 : (⟨1, ![3]⟩ : Shape).Idx → EReal)
    (e : Fin 4000000) (k : Fin 3) : EReal :=
  mlp (fun a j => W1 (ix2 a j)) (fun j => b1 (ix1 j)) (fun a j => W2 (ix2 a j)) (fun j => b2 (ix1 j))
    (fun a j => W3 (ix2 a j)) (fun j => b3 (ix1 j)) (fun a j => W4 (ix2 a j)) (fun j => b4 (ix1 j))
    (feat pts adj e) k

/-- Corner `(e, k)` lands on vertex `n`: its adjacency word read signed is `n`. -/
def hits (adj : (⟨2, ![4000000, 3]⟩ : Shape).Idx → BitVec 32) (n : Nat) (p : Fin 4000000 × Fin 3) : Prop :=
  (adj (ix2 p.1 p.2)).toInt = (n : Int)

instance (adj : (⟨2, ![4000000, 3]⟩ : Shape).Idx → BitVec 32) (n : Nat) : DecidablePred (hits adj n) := fun p => by
  unfold hits; infer_instance

/-- THE RESULT: per vertex, zero plus the weights of the corners that land on it. -/
def G (pts : (⟨2, ![2000000, 2]⟩ : Shape).Idx → EReal) (adj : (⟨2, ![4000000, 3]⟩ : Shape).Idx → BitVec 32)
    (W1 : (⟨2, ![6, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 8]⟩ : Shape).Idx → EReal) (b3 : (⟨1, ![8]⟩ : Shape).Idx → EReal)
    (W4 : (⟨2, ![8, 3]⟩ : Shape).Idx → EReal) (b4 : (⟨1, ![3]⟩ : Shape).Idx → EReal) :
    (⟨1, ![2000000]⟩ : Shape).Idx → EReal := fun i =>
  Ideal.ofBits .f32 0x00000000#32
    + ∑ p ∈ Finset.univ.filter (hits adj (i 0).val), weight pts adj W1 b1 W2 b2 W3 b3 W4 b4 p.1 p.2

/-- The corners enumerated CORNER-MAJOR (position `k * 4000000 + e` of a flat list of 12000000): a sum over the positions
    that satisfy a predicate of the corner is the sum over the corners that satisfy it. -/
theorem sum_cornerMajor {M : Type} [AddCommMonoid M] (P : Fin 4000000 × Fin 3 → Prop) [DecidablePred P]
    (f : Fin 4000000 → Fin 3 → M) :
    ∑ j ∈ Finset.univ.filter (fun j : Fin 12000000 =>
        P ((⟨j.val % 4000000, Nat.mod_lt _ (by decide)⟩ : Fin 4000000), (⟨j.val / 4000000, by omega⟩ : Fin 3))),
      f ⟨j.val % 4000000, Nat.mod_lt _ (by decide)⟩ ⟨j.val / 4000000, by omega⟩
    = ∑ p ∈ Finset.univ.filter P, f p.1 p.2 := by
  -- The position of corner (e, k) is k * 4000000 + e; quotient and remainder by 4000000 recover k and e.
  refine Finset.sum_nbij'
    (fun j : Fin 12000000 =>
      ((⟨j.val % 4000000, Nat.mod_lt _ (by decide)⟩ : Fin 4000000), (⟨j.val / 4000000, by omega⟩ : Fin 3)))
    (fun p : Fin 4000000 × Fin 3 => (⟨p.2.val * 4000000 + p.1.val, by omega⟩ : Fin 12000000))
    ?_ ?_ ?_ ?_ ?_
  · intro j hj
    simp only [Finset.mem_filter, Finset.mem_univ, true_and] at hj ⊢
    exact hj
  · intro p hp
    simp only [Finset.mem_filter, Finset.mem_univ, true_and] at hp ⊢
    have hp2 := hp
    have h1 : (p.2.val * 4000000 + p.1.val) % 4000000 = p.1.val := by omega
    have h2 : (p.2.val * 4000000 + p.1.val) / 4000000 = p.2.val := by omega
    have hpe : ((⟨(p.2.val * 4000000 + p.1.val) % 4000000, Nat.mod_lt _ (by decide)⟩ : Fin 4000000),
        (⟨(p.2.val * 4000000 + p.1.val) / 4000000, by omega⟩ : Fin 3)) = p :=
      Prod.ext (Fin.ext h1) (Fin.ext h2)
    show P ((⟨(p.2.val * 4000000 + p.1.val) % 4000000, _⟩ : Fin 4000000),
        (⟨(p.2.val * 4000000 + p.1.val) / 4000000, _⟩ : Fin 3))
    rw [hpe]
    exact hp2
  · intro j _
    apply Fin.ext
    show j.val / 4000000 * 4000000 + j.val % 4000000 = j.val
    omega
  · intro p _
    have h1 : (p.2.val * 4000000 + p.1.val) % 4000000 = p.1.val := by omega
    have h2 : (p.2.val * 4000000 + p.1.val) / 4000000 = p.2.val := by omega
    exact Prod.ext (Fin.ext h1) (Fin.ext h2)
  · intro j _
    rfl

/-- The corners enumerated SIMPLEX-MAJOR (position `e * 3 + k`): the same. -/
theorem sum_simplexMajor {M : Type} [AddCommMonoid M] (P : Fin 4000000 × Fin 3 → Prop) [DecidablePred P]
    (f : Fin 4000000 → Fin 3 → M) :
    ∑ j ∈ Finset.univ.filter (fun j : Fin 12000000 =>
        P ((⟨j.val / 3, by omega⟩ : Fin 4000000), (⟨j.val % 3, Nat.mod_lt _ (by decide)⟩ : Fin 3))),
      f ⟨j.val / 3, by omega⟩ ⟨j.val % 3, Nat.mod_lt _ (by decide)⟩
    = ∑ p ∈ Finset.univ.filter P, f p.1 p.2 := by
  -- The position of corner (e, k) is e * 3 + k; quotient and remainder by 3 recover e and k.
  refine Finset.sum_nbij'
    (fun j : Fin 12000000 =>
      ((⟨j.val / 3, by omega⟩ : Fin 4000000), (⟨j.val % 3, Nat.mod_lt _ (by decide)⟩ : Fin 3)))
    (fun p : Fin 4000000 × Fin 3 => (⟨p.1.val * 3 + p.2.val, by omega⟩ : Fin 12000000))
    ?_ ?_ ?_ ?_ ?_
  · intro j hj
    simp only [Finset.mem_filter, Finset.mem_univ, true_and] at hj ⊢
    exact hj
  · intro p hp
    simp only [Finset.mem_filter, Finset.mem_univ, true_and] at hp ⊢
    have hp2 := hp
    have h1 : (p.1.val * 3 + p.2.val) / 3 = p.1.val := by omega
    have h2 : (p.1.val * 3 + p.2.val) % 3 = p.2.val := by omega
    have hpe : ((⟨(p.1.val * 3 + p.2.val) / 3, by omega⟩ : Fin 4000000),
        (⟨(p.1.val * 3 + p.2.val) % 3, Nat.mod_lt _ (by decide)⟩ : Fin 3)) = p :=
      Prod.ext (Fin.ext h1) (Fin.ext h2)
    show P ((⟨(p.1.val * 3 + p.2.val) / 3, _⟩ : Fin 4000000),
        (⟨(p.1.val * 3 + p.2.val) % 3, _⟩ : Fin 3))
    rw [hpe]
    exact hp2
  · intro j _
    apply Fin.ext
    show j.val / 3 * 3 + j.val % 3 = j.val
    omega
  · intro p _
    have h1 : (p.1.val * 3 + p.2.val) / 3 = p.1.val := by omega
    have h2 : (p.1.val * 3 + p.2.val) % 3 = p.2.val := by omega
    exact Prod.ext (Fin.ext h1) (Fin.ext h2)
  · intro j _
    rfl

end Cert.Spec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KIBody.lean ====
/-
  ONE COLUMN OF THE KERNEL'S BLOCK. The kernel body holds a block of features feature-major (6 rows, one column per
  simplex), multiplies the transposed weight matrices from the left, adds each bias as a column, and applies the
  logistic; the changes of float format in between are the identity on the extended reals. Read at row `k` and column
  `e` the stored block is the four dense layers of `Spec.mlp` applied to column `e` of the feature block, with the
  weight matrices read transposed back and the bias columns read at their one column.
-/
import proofs.«135624_j69853348102547_1_alg».proof.Proof.Gen.KernelIdeal.Skeleton
import proofs.«135624_j69853348102547_1_alg».proof.Proof.Spec
import proofs.«135624_j69853348102547_1_alg».proof.Proof.LibPlainMatmul
import Idealize.ShloMosaic.PureOps.Ideal.Laws
import Idealize.ShloMosaic.Lib.Pipeline.Value

open scoped BigOperators

noncomputable section

namespace Cert.KernelIdeal.Body

open Cert.KernelIdeal Cert.KernelIdeal.Gen Idealize.ShloMosaic Idealize.ShloMosaic.ValueIdx

/-- A column `[a, 1]` broadcast to `[a, b]` reads, at `(p, c)`, the column's entry of row `p`. -/
private theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- ONE LAYER of the body read at an entry: the weight matrix `W` (one row per output feature) times the activation
    block `X` (one column per simplex), plus the bias column, under the logistic, at row `j` and column `e`, is the
    dense layer of column `e` of `X` with the weights read transposed; the casts to the same shape and the changes of
    float format are the identity. -/
private theorem layer_apply {m k n : ℕ} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = PlainMatmul.dims w)
    (W : FVec Ideal ⟨2, ![m, k]⟩ .f32) (hW : (⟨2, ![m, k]⟩ : Shape).ShapeCasts ⟨2, ![m, k]⟩)
    (X : FVec Ideal ⟨2, ![k, n]⟩ .f32)
    (c : FVec Ideal ⟨2, ![m, 1]⟩ .f32) (hc : (⟨2, ![m, 1]⟩ : Shape).ShapeCasts ⟨2, ![m, 1]⟩)
    (hb : (⟨2, ![m, 1]⟩ : Shape).Broadcasts ⟨2, ![m, n]⟩) (hlt : FTy.bits .bf16 < FTy.bits .f32)
    (j : Fin m) (e : Fin n) :
    logistic (addf
        (matmul d none (truncf .bf16 (shapeCast ⟨2, ![m, k]⟩ W hW) hlt) (truncf .bf16 X hlt)
          (constant (F := Ideal) ⟨2, ![m, n]⟩ .f32 0x00000000#32))
        (broadcastTo ⟨2, ![m, n]⟩ (shapeCast ⟨2, ![m, 1]⟩ c hc) hb)) (ix2 j e)
      = Cert.Spec.dense (fun a j => W (ix2 j a)) (fun j => c (ix2 j (0 : Fin 1))) (fun a => X (ix2 a e)) j := by
  show Ideal.logistic
      (matmul d none (truncf .bf16 (shapeCast ⟨2, ![m, k]⟩ W hW) hlt) (truncf .bf16 X hlt)
          (constant (F := Ideal) ⟨2, ![m, n]⟩ .f32 0x00000000#32) (ix2 j e)
        + broadcastTo ⟨2, ![m, n]⟩ (shapeCast ⟨2, ![m, 1]⟩ c hc) hb (ix2 j e)) = _
  rw [PlainMatmul.matmul_zero_apply d w hd, broadcastTo_column_apply, shapeCast_self, shapeCast_self]
  unfold Cert.Spec.dense
  refine congrArg (fun s => Ideal.logistic (s + c (ix2 j (0 : Fin 1)))) (Finset.sum_congr rfl fun a _ => ?_)
  exact mul_comm _ _

/-- The block the body stores, at row `k` (a corner) and column `e` (a simplex of the block). -/
theorem pay_apply (v0 : Vec Ideal S6x80000 .f32) (v3 : Vec Ideal S8x6 .f32) (v7 : Vec Ideal S8x1 .f32)
    (v13 : Vec Ideal S8x8 .f32) (v17 : Vec Ideal S8x1 .f32) (v23 : Vec Ideal S8x8 .f32) (v27 : Vec Ideal S8x1 .f32)
    (v33 : Vec Ideal S3x8 .f32) (v37 : Vec Ideal S3x1 .f32) (k : Fin 3) (e : Fin 80000) :
    k0_pay1 (F := Ideal) (k0_pay2 (F := Ideal) v0 v3 v7 v13 v17 v23 v27 v33) v37 (ix2 k e)
      = Cert.Spec.mlp (fun a j => v3 (ix2 j a)) (fun j => v7 (ix2 j (0 : Fin 1)))
          (fun a j => v13 (ix2 j a)) (fun j => v17 (ix2 j (0 : Fin 1)))
          (fun a j => v23 (ix2 j a)) (fun j => v27 (ix2 j (0 : Fin 1)))
          (fun a j => v33 (ix2 j a)) (fun j => v37 (ix2 j (0 : Fin 1)))
          (fun f => v0 (ix2 f e)) k := by
  unfold k0_pay1 k0_pay2 Cert.Spec.mlp
  refine (layer_apply _ dot_S3x8_S8x80000_S3x80000_1_0_0_1_n_n_wf rfl v33 _ _ v37 _ _ _ k e).trans ?_
  refine congrArg (fun h => Cert.Spec.dense (fun a j => v33 (ix2 j a)) (fun j => v37 (ix2 j (0 : Fin 1))) h k)
    (funext fun a3 => ?_)
  refine (layer_apply _ dot_S8x8_S8x80000_S8x80000_1_0_0_1_n_n_wf rfl v23 _ _ v27 _ _ _ a3 e).trans ?_
  refine congrArg (fun h => Cert.Spec.dense (fun a j => v23 (ix2 j a)) (fun j => v27 (ix2 j (0 : Fin 1))) h a3)
    (funext fun a2 => ?_)
  refine (layer_apply _ dot_S8x8_S8x80000_S8x80000_1_0_0_1_n_n_wf rfl v13 _ _ v17 _ _ _ a2 e).trans ?_
  refine congrArg (fun h => Cert.Spec.dense (fun a j => v13 (ix2 j a)) (fun j => v17 (ix2 j (0 : Fin 1))) h a2)
    (funext fun a1 => ?_)
  refine (layer_apply _ dot_S8x6_S6x80000_S8x80000_1_0_0_1_n_n_wf rfl v3 _ _ v7 _ _ _ a1 e).trans ?_
  rw [shapeCast_self]

end Cert.KernelIdeal.Body

end
-- ==== Proof.LibNary6.lean ====
/-
  A host operation over SIX operand buffers (a concatenation of six arrays), read at its result buffer: its function of
  the six operands' contents, each read at its own buffer rather than through the table of the six.
-/
import Idealize.ShloMosaic.Lib.StableHlo.Run

noncomputable section

namespace Cert.LibNary6

open Idealize.ShloMosaic Idealize.ShloMosaic.StableHlo

variable {τ : Topo} {sig : RefSig} {Val : EltTy → Type}
variable {x0 x1 x2 x3 x4 x5 y : Ref sig .tc}

/-- The result of an operation over the literal family of six buffers, at its result buffer. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

/-- The same, with the result buffer left out of the index of rewriting lemmas. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) :=
  nary6_result f hxs hy F

/-- When the operation's function takes its six operands one by one, its result is that function of the six buffers'
    contents. -/
theorem nary6_args_result
    (g : x0.ty.Contents Val → x1.ty.Contents Val → x2.ty.Contents Val → x3.ty.Contents Val → x4.ty.Contents Val →
      x5.ty.Contents Val → y.ty.Contents Val) (hxs hy) (F : Valuation τ sig Val) :
    (nary (τ := τ) ![x0, x1, x2, x3, x4, x5] y (fun u => g (u 0) (u 1) (u 2) (u 3) (u 4) (u 5)) hxs hy).result F (Proc.devRef .tc y)
      = g (F (Proc.devRef .tc x0)) (F (Proc.devRef .tc x1)) (F (Proc.devRef .tc x2)) (F (Proc.devRef .tc x3))
          (F (Proc.devRef .tc x4)) (F (Proc.devRef .tc x5)) := by
  rw [nary_result]; rfl

/-- The same, with the result buffer left out of the index of rewriting lemmas. -/
theorem nary6_args_result'
    (g : x0.ty.Contents Val → x1.ty.Contents Val → x2.ty.Contents Val → x3.ty.Contents Val → x4.ty.Contents Val →
      x5.ty.Contents Val → y.ty.Contents Val) (hxs hy) (F : Valuation τ sig Val) :
    (nary (τ := τ) ![x0, x1, x2, x3, x4, x5] y (fun u => g (u 0) (u 1) (u 2) (u 3) (u 4) (u 5)) hxs hy).result F
        (no_index (Proc.devRef .tc y))
      = g (F (Proc.devRef .tc x0)) (F (Proc.devRef .tc x1)) (F (Proc.devRef .tc x2)) (F (Proc.devRef .tc x3))
          (F (Proc.devRef .tc x4)) (F (Proc.devRef .tc x5)) :=
  nary6_args_result g hxs hy F

end Cert.LibNary6

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.KIHostW.lean ====
/-
  WHAT THE HOST OPERATIONS AROUND THE REGION DO TO THE SMALL ARRAYS AND TO THE FLAT LISTS. Before the region the four
  weight matrices are transposed, the four biases become one-column matrices, and the three adjacency columns are kept
  as flat vectors. After the region the corner-major flat list of 12000000 positions pairs position `k * 4000000 + e`
  of the reshaped result block with adjacency word `(e, k)`: the index column is the three flat vectors end to end, the
  updates are the [3, 4000000] block read row-major.
-/
import proofs.«135624_j69853348102547_1_alg».proof.Proof.Gen.KernelIdeal.Launch
import proofs.«135624_j69853348102547_1_alg».proof.Proof.Spec
import proofs.«135624_j69853348102547_1_alg».proof.Proof.LibNary6
import proofs.«135624_j69853348102547_1_alg».proof.Proof.LibAfter
import Idealize.ShloMosaic.Lib.Pipeline.Value
import Idealize.ShloMosaic.Lib.ValueIdx
import Idealize.ShloMosaic.Lib.StableHlo.Run
import Idealize.ShloMosaic.Lib.StableHlo.Predicate

set_option maxRecDepth 16384

noncomputable section

namespace Cert.KernelIdeal.Host

open Cert.KernelIdeal Cert.KernelIdeal.Gen Idealize.ShloMosaic Idealize.ShloMosaic.TcCoe Idealize.ShloMosaic.ValueIdx
open Idealize.ShloMosaic.StableHlo.Predicate (ixP)

variable (m : (ℓ : Loc nD τ sig) → Buf (Elt Ideal) ℓ) (c : Dev nD)

/-- The buffers' contents on core `c` after the first stretch of host operations. -/
abbrev E0 : Valuation τ sig (Elt Ideal) := StableHlo.after (hostOps0 (F := Ideal)) (fun b => m (c, b))

/-! ### Layout operations of this program read at an index -/

/-- A transposed matrix read at `(j, a)` is the matrix at `(a, j)`. -/
private theorem transpose_ix2 {n k : Nat} {α : Type} (x : (⟨2, ![n, k]⟩ : Shape).Idx → α)
    (h : (⟨2, ![n, k]⟩ : Shape).Transposes [1, 0] ⟨2, ![k, n]⟩) (j : Fin k) (a : Fin n) :
    transpose ⟨2, ![k, n]⟩ [1, 0] x h (ix2 j a) = x (ix2 a j) := by
  refine transpose_apply _ x h (ix2 j a) (ix2 a j) (fun b => ?_)
  match b with
  | ⟨0, _⟩ => rfl
  | ⟨1, _⟩ => rfl

/-- A vector reshaped to a one-column matrix read at `(j, 0)` is the vector at `j`. -/
private theorem column_ix2 {n : Nat} {α : Type} (x : (⟨1, ![n]⟩ : Shape).Idx → α)
    (h : (⟨1, ![n]⟩ : Shape).ShapeCasts ⟨2, ![n, 1]⟩) (j : Fin n) :
    shapeCast ⟨2, ![n, 1]⟩ x h (ix2 j (0 : Fin 1)) = x (ix1 j) := by
  refine shapeCast_apply x h _ (ix1 j) ?_
  rw [Shape.rowMajor_val_one, Shape.rowMajor_val_two]
  show j.val = j.val * 1 + 0
  omega

/-- Column `k` of the adjacency array, sliced out as a one-column matrix and flattened, read at `e` is the array at `(e, k)`. -/
private theorem flatColumn_ix1 {α : Type} (x : S4000000x3.Idx → α) (off : Fin 2 → Nat) (k : Fin 3)
    (hoff0 : off 0 = 0) (hoff1 : off 1 = k.val) (hs : S4000000x3.Slices off S4000000x1) (e : Fin 4000000) :
    shapeCast S4000000 (extractStridedSlice S4000000x1 off x hs) shapeCasts_S4000000x1_S4000000 (ix1 e) = x (ix2 e k) := by
  refine (shapeCast_apply _ _ (ix1 e) (ix2 e (0 : Fin 1)) ?_).trans ?_
  · rw [Shape.rowMajor_val_one, Shape.rowMajor_val_two]
    show e.val * 1 + 0 = e.val
    omega
  · refine extractStridedSlice_apply off x hs (ix2 e (0 : Fin 1)) (ix2 e k) (fun a => ?_)
    match a with
    | ⟨0, _⟩ => show e.val = off 0 + e.val; omega
    | ⟨1, _⟩ => show k.val = off 1 + 0; omega

/-! ### The small arrays before the region -/

set_option maxHeartbeats 4000000 in
/-- The weight matrices reach the region transposed. -/
theorem w1t_eq (j : Fin 8) (a : Fin 6) :
    (E0 m c (Proc.devRef .tc main_v59) : S8x6.Idx → EReal) (ix2 j a) = m ((c : Thread nD τ).loc main_arg2) (ix2 a j) := by
  have e : (E0 m c (Proc.devRef .tc main_v59) : S8x6.Idx → EReal)
      = transpose S8x6 [1, 0] (m ((c : Thread nD τ).loc main_arg2)) transposes_S6x8_S8x6_1_0 := by
    dsimp only [E0, hostOps0]
    after_results_simp <;> rfl
  rw [e]
  exact transpose_ix2 _ _ j a
set_option maxHeartbeats 4000000 in
theorem w2t_eq (j : Fin 8) (a : Fin 8) :
    (E0 m c (Proc.devRef .tc main_v60) : S8x8.Idx → EReal) (ix2 j a) = m ((c : Thread nD τ).loc main_arg4) (ix2 a j) := by
  have e : (E0 m c (Proc.devRef .tc main_v60) : S8x8.Idx → EReal)
      = transpose S8x8 [1, 0] (m ((c : Thread nD τ).loc main_arg4)) transposes_S8x8_S8x8_1_0 := by
    dsimp only [E0, hostOps0]
    after_results_simp <;> rfl
  rw [e]
  exact transpose_ix2 _ _ j a
set_option maxHeartbeats 4000000 in
theorem w3t_eq (j : Fin 8) (a : Fin 8) :
    (E0 m c (Proc.devRef .tc main_v61) : S8x8.Idx → EReal) (ix2 j a) = m ((c : Thread nD τ).loc main_arg6) (ix2 a j) := by
  have e : (E0 m c (Proc.devRef .tc main_v61) : S8x8.Idx → EReal)
      = transpose S8x8 [1, 0] (m ((c : Thread nD τ).loc main_arg6)) transposes_S8x8_S8x8_1_0 := by
    dsimp only [E0, hostOps0]
    after_results_simp <;> rfl
  rw [e]
  exact transpose_ix2 _ _ j a
set_option maxHeartbeats 4000000 in
theorem w4t_eq (j : Fin 3) (a : Fin 8) :
    (E0 m c (Proc.devRef .tc main_v62) : S3x8.Idx → EReal) (ix2 j a) = m ((c : Thread nD τ).loc main_arg8) (ix2 a j) := by
  have e : (E0 m c (Proc.devRef .tc main_v62) : S3x8.Idx → EReal)
      = transpose S3x8 [1, 0] (m ((c : Thread nD τ).loc main_arg8)) transposes_S8x3_S3x8_1_0 := by
    dsimp only [E0, hostOps0]
    after_results_simp <;> rfl
  rw [e]
  exact transpose_ix2 _ _ j a

set_option maxHeartbeats 4000000 in
/-- The biases reach the region as one-column matrices. -/
theorem b1c_eq (j : Fin 8) :
    (E0 m c (Proc.devRef .tc main_v63) : S8x1.Idx → EReal) (ix2 j (0 : Fin 1)) = m ((c : Thread nD τ).loc main_arg3) (ix1 j) := by
  have e : (E0 m c (Proc.devRef .tc main_v63) : S8x1.Idx → EReal)
      = shapeCast S8x1 (m ((c : Thread nD τ).loc main_arg3)) shapeCasts_S8_S8x1 := by
    dsimp only [E0, hostOps0]
    after_results_simp <;> rfl
  rw [e]
  exact column_ix2 _ _ j
set_option maxHeartbeats 4000000 in
theorem b2c_eq (j : Fin 8) :
    (E0 m c (Proc.devRef .tc main_v64) : S8x1.Idx → EReal) (ix2 j (0 : Fin 1)) = m ((c : Thread nD τ).loc main_arg5) (ix1 j) := by
  have e : (E0 m c (Proc.devRef .tc main_v64) : S8x1.Idx → EReal)
      = shapeCast S8x1 (m ((c : Thread nD τ).loc main_arg5)) shapeCasts_S8_S8x1 := by
    dsimp only [E0, hostOps0]
    after_results_simp <;> rfl
  rw [e]
  exact column_ix2 _ _ j
set_option maxHeartbeats 4000000 in
theorem b3c_eq (j : Fin 8) :
    (E0 m c (Proc.devRef .tc main_v65) : S8x1.Idx → EReal) (ix2 j (0 : Fin 1)) = m ((c : Thread nD τ).loc main_arg7) (ix1 j) := by
  have e : (E0 m c (Proc.devRef .tc main_v65) : S8x1.Idx → EReal)
      = shapeCast S8x1 (m ((c : Thread nD τ).loc main_arg7)) shapeCasts_S8_S8x1 := by
    dsimp only [E0, hostOps0]
    after_results_simp <;> rfl
  rw [e]
  exact column_ix2 _ _ j
set_option maxHeartbeats 4000000 in
theorem b4c_eq (j : Fin 3) :
    (E0 m c (Proc.devRef .tc main_v66) : S3x1.Idx → EReal) (ix2 j (0 : Fin 1)) = m ((c : Thread nD τ).loc main_arg9) (ix1 j) := by
  have e : (E0 m c (Proc.devRef .tc main_v66) : S3x1.Idx → EReal)
      = shapeCast S3x1 (m ((c : Thread nD τ).loc main_arg9)) shapeCasts_S3_S3x1 := by
    dsimp only [E0, hostOps0]
    after_results_simp <;> rfl
  rw [e]
  exact column_ix2 _ _ j

set_option maxHeartbeats 4000000 in
/-- The three adjacency columns, kept as flat vectors. -/
theorem col0_eq (e : Fin 4000000) :
    (E0 m c (Proc.devRef .tc main_v1) : S4000000.Idx → BitVec 32) (ix1 e) = m ((c : Thread nD τ).loc main_arg1) (ix2 e (0 : Fin 3)) := by
  have e' : (E0 m c (Proc.devRef .tc main_v1) : S4000000.Idx → BitVec 32)
      = shapeCast S4000000 (extractStridedSlice S4000000x1 ![0, 0] (m ((c : Thread nD τ).loc main_arg1)) slices_S4000000x3_S4000000x1_0_0)
          shapeCasts_S4000000x1_S4000000 := by
    dsimp only [E0, hostOps0]
    after_results_simp <;> rfl
  rw [e']
  exact flatColumn_ix1 _ _ (0 : Fin 3) rfl rfl _ e
set_option maxHeartbeats 4000000 in
theorem col1_eq (e : Fin 4000000) :
    (E0 m c (Proc.devRef .tc main_v3) : S4000000.Idx → BitVec 32) (ix1 e) = m ((c : Thread nD τ).loc main_arg1) (ix2 e (1 : Fin 3)) := by
  have e' : (E0 m c (Proc.devRef .tc main_v3) : S4000000.Idx → BitVec 32)
      = shapeCast S4000000 (extractStridedSlice S4000000x1 ![0, 1] (m ((c : Thread nD τ).loc main_arg1)) slices_S4000000x3_S4000000x1_0_1)
          shapeCasts_S4000000x1_S4000000 := by
    dsimp only [E0, hostOps0]
    after_results_simp <;> rfl
  rw [e']
  exact flatColumn_ix1 _ _ (1 : Fin 3) rfl rfl _ e
set_option maxHeartbeats 4000000 in
theorem col2_eq (e : Fin 4000000) :
    (E0 m c (Proc.devRef .tc main_v5) : S4000000.Idx → BitVec 32) (ix1 e) = m ((c : Thread nD τ).loc main_arg1) (ix2 e (2 : Fin 3)) := by
  have e' : (E0 m c (Proc.devRef .tc main_v5) : S4000000.Idx → BitVec 32)
      = shapeCast S4000000 (extractStridedSlice S4000000x1 ![0, 2] (m ((c : Thread nD τ).loc main_arg1)) slices_S4000000x3_S4000000x1_0_2)
          shapeCasts_S4000000x1_S4000000 := by
    dsimp only [E0, hostOps0]
    after_results_simp <;> rfl
  rw [e']
  exact flatColumn_ix1 _ _ (2 : Fin 3) rfl rfl _ e

/-! ### The flat lists after the region -/

/-- Two entries of the adjacency array at indices with equal coordinates. -/
private theorem adj_congr (adj : S4000000x3.Idx → BitVec 32) {e e' : Fin 4000000} {k k' : Fin 3}
    (he : e.val = e'.val) (hk : k.val = k'.val) : adj (ix2 e k) = adj (ix2 e' k') := by
  rw [Fin.ext he, Fin.ext hk]

/-- The extents of the first piece, and of the first two pieces, of three flat vectors laid end to end. -/
private theorem pre1 {α : Type} (A0 A1 A2 : S4000000.Idx → α) :
    ((([(⟨S4000000, A0⟩ : (s : Shape) × (s.Idx → α)), ⟨S4000000, A1⟩, ⟨S4000000, A2⟩].take 1).map (·.1)).map fun s =>
      if h : s.rank = S12000000.rank then s.size ((0 : Fin S12000000.rank).cast h.symm) else 0).sum = 4000000 := by
  simp only [List.take, List.map, List.sum_cons, List.sum_nil]
  rw [dif_pos trivial]
  show 4000000 + 0 = 4000000
  omega
private theorem pre2 {α : Type} (A0 A1 A2 : S4000000.Idx → α) :
    ((([(⟨S4000000, A0⟩ : (s : Shape) × (s.Idx → α)), ⟨S4000000, A1⟩, ⟨S4000000, A2⟩].take 2).map (·.1)).map fun s =>
      if h : s.rank = S12000000.rank then s.size ((0 : Fin S12000000.rank).cast h.symm) else 0).sum = 8000000 := by
  simp only [List.take, List.map, List.sum_cons, List.sum_nil]
  rw [dif_pos trivial]
  show 4000000 + (4000000 + 0) = 8000000
  omega

/-- The scatter's index column after the region: three flat vectors end to end, made a one-column matrix; position
    `j` holds entry `j % 4000000` of vector `j / 4000000`. Stated for vectors that are the columns of one array. -/
theorem tailIdx_apply (adj : S4000000x3.Idx → BitVec 32) (A0 A1 A2 : IVec S4000000 32)
    (h0 : ∀ e, A0 (ix1 e) = adj (ix2 e (0 : Fin 3))) (h1 : ∀ e, A1 (ix1 e) = adj (ix2 e (1 : Fin 3)))
    (h2 : ∀ e, A2 (ix1 e) = adj (ix2 e (2 : Fin 3))) (j : Fin 12000000) :
    broadcastInDim S12000000x1 ![0] bcast_S12000000_S12000000x1_0
        (concatenate S12000000 0 [⟨S4000000, A0⟩, ⟨S4000000, A1⟩, ⟨S4000000, A2⟩]
          concatenates_S4000000_S4000000_S4000000_S12000000_d0) (ixP j)
      = adj (ix2 (⟨j.val % 4000000, Nat.mod_lt _ (by decide)⟩ : Fin 4000000) (⟨j.val / 4000000, by omega⟩ : Fin 3)) := by
  rw [StableHlo.Predicate.bcast_col1]
  have hj := j.isLt
  -- a flat vector has no axis other than the one the pieces are laid along
  have hne : ∀ b : Fin S4000000.rank, b.cast (rfl : S4000000.rank = S12000000.rank) ≠ (0 : Fin 1) →
      ∀ (i : S4000000.Idx), (i b).val = ((Shape.Idx.ofFin j : S12000000.Idx) (b.cast rfl)).val :=
    fun b hb => absurd (Subsingleton.elim _ _) hb
  rcases Nat.lt_or_ge j.val 4000000 with h | h
  · refine (concatenate_apply_piece (t := S12000000) (0 : Fin 1) [⟨S4000000, A0⟩, ⟨S4000000, A1⟩, ⟨S4000000, A2⟩]
      concatenates_S4000000_S4000000_S4000000_S12000000_d0 (Shape.Idx.ofFin j) 0 (by show (0 : Nat) < 3; omega) S4000000 A0 rfl rfl 0 rfl
      (ix1 ⟨j.val, h⟩) (fun b hb => hne b hb _) (by show 0 + j.val = j.val; omega)).trans ?_
    rw [h0]
    exact adj_congr adj (by show j.val = j.val % 4000000; omega) (by show 0 = j.val / 4000000; omega)
  · rcases Nat.lt_or_ge j.val 8000000 with h' | h'
    · refine (concatenate_apply_piece (t := S12000000) (0 : Fin 1) [⟨S4000000, A0⟩, ⟨S4000000, A1⟩, ⟨S4000000, A2⟩]
        concatenates_S4000000_S4000000_S4000000_S12000000_d0 (Shape.Idx.ofFin j) 1 (by show (1 : Nat) < 3; omega) S4000000 A1 rfl rfl
        4000000 (pre1 A0 A1 A2)
        (ix1 ⟨j.val - 4000000, by omega⟩) (fun b hb => hne b hb _) (by show 4000000 + (j.val - 4000000) = j.val; omega)).trans ?_
      rw [h1]
      exact adj_congr adj (by show j.val - 4000000 = j.val % 4000000; omega) (by show 1 = j.val / 4000000; omega)
    · refine (concatenate_apply_piece (t := S12000000) (0 : Fin 1) [⟨S4000000, A0⟩, ⟨S4000000, A1⟩, ⟨S4000000, A2⟩]
        concatenates_S4000000_S4000000_S4000000_S12000000_d0 (Shape.Idx.ofFin j) 2 (by show (2 : Nat) < 3; omega) S4000000 A2 rfl rfl
        8000000 (pre2 A0 A1 A2)
        (ix1 ⟨j.val - 8000000, by omega⟩) (fun b hb => hne b hb _) (by show 8000000 + (j.val - 8000000) = j.val; omega)).trans ?_
      rw [h2]
      exact adj_congr adj (by show j.val - 8000000 = j.val % 4000000; omega) (by show 2 = j.val / 4000000; omega)

/-- The scatter's updates after the region: the [3, 4000000] result block read row-major as a flat list. -/
theorem tailUpd_apply {α : Type} (Y : S3x4000000.Idx → α) (j : Fin 12000000) :
    shapeCast S12000000 Y shapeCasts_S3x4000000_S12000000 (ix1 j)
      = Y (ix2 (⟨j.val / 4000000, by omega⟩ : Fin 3) (⟨j.val % 4000000, Nat.mod_lt _ (by decide)⟩ : Fin 4000000)) := by
  refine shapeCast_apply Y _ (ix1 j) _ ?_
  rw [Shape.rowMajor_val_two, Shape.rowMajor_val_one]
  show j.val / 4000000 * 4000000 + j.val % 4000000 = j.val
  omega

end Cert.KernelIdeal.Host

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KIHost.lean ====
/-
  THE FEATURE ARRAY THE REGION READS. Six rows laid one above the other: row `f` holds, for every simplex `e`, coordinate
  `f % 2` of the vertex named by corner `f / 2` of the simplex — the adjacency word wrapped when negative by the host's
  compare, add and select, then read signed and clamped into the table by the gather — which is `Spec.feat`.
-/
import proofs.«135624_j69853348102547_1_alg».proof.Proof.KIHostW
import proofs.«135624_j69853348102547_1_alg».proof.Proof.LibGatherScatter

set_option maxRecDepth 16384

noncomputable section

namespace Cert.KernelIdeal.Host

open Cert.KernelIdeal Cert.KernelIdeal.Gen Idealize.ShloMosaic Idealize.ShloMosaic.TcCoe Idealize.ShloMosaic.ValueIdx
open Idealize.ShloMosaic.StableHlo.Predicate (ixP)

variable (m : (ℓ : Loc nD τ sig) → Buf (Elt Ideal) ℓ) (c : Dev nD)

/-- Coordinate column 0 / 1 of the vertex table, as a flat vector. -/
private abbrev ptsCol0 (pts : S2000000x2.Idx → EReal) : S2000000.Idx → EReal :=
  shapeCast S2000000 (extractStridedSlice S2000000x1 ![0, 0] pts slices_S2000000x2_S2000000x1_0_0) shapeCasts_S2000000x1_S2000000
private abbrev ptsCol1 (pts : S2000000x2.Idx → EReal) : S2000000.Idx → EReal :=
  shapeCast S2000000 (extractStridedSlice S2000000x1 ![0, 1] pts slices_S2000000x2_S2000000x1_0_1) shapeCasts_S2000000x1_S2000000

/-- Corner column 0 / 1 / 2 of the adjacency array, as a flat vector. -/
private abbrev adjCol0 (adj : S4000000x3.Idx → BitVec 32) : S4000000.Idx → BitVec 32 :=
  shapeCast S4000000 (extractStridedSlice S4000000x1 ![0, 0] adj slices_S4000000x3_S4000000x1_0_0) shapeCasts_S4000000x1_S4000000
private abbrev adjCol1 (adj : S4000000x3.Idx → BitVec 32) : S4000000.Idx → BitVec 32 :=
  shapeCast S4000000 (extractStridedSlice S4000000x1 ![0, 1] adj slices_S4000000x3_S4000000x1_0_1) shapeCasts_S4000000x1_S4000000
private abbrev adjCol2 (adj : S4000000x3.Idx → BitVec 32) : S4000000.Idx → BitVec 32 :=
  shapeCast S4000000 (extractStridedSlice S4000000x1 ![0, 2] adj slices_S4000000x3_S4000000x1_0_2) shapeCasts_S4000000x1_S4000000

/-- One row of the feature array: the table read at the wrapped words of one corner column, as a [1, 4000000] row. -/
private abbrev rowT (tbl : S2000000.Idx → EReal) (col : S4000000.Idx → BitVec 32) : S1x4000000.Idx → EReal :=
  broadcastInDim S1x4000000 ![1] bcast_S4000000_S1x4000000_1
    (Host.gather gather_S2000000_S4000000x1_S4000000_n_0_n_n_0_1_1 tbl
      (broadcastInDim S4000000x1 ![0] bcast_S4000000_S4000000x1_0
        (select (cmpi .slt col (broadcastInDim S4000000 ![] bcast_S_S4000000 (constantI S_ 32 0#32)))
          (addi col (broadcastInDim S4000000 ![] bcast_S_S4000000 (constantI S_ 32 2000000#32))) col)))

open Idealize.ShloMosaic.RowOps in
/-- A row at a column: the table at the vertex the corner's word names. -/
private theorem rowT_apply (tbl : S2000000.Idx → EReal) (col : S4000000.Idx → BitVec 32) (e : Fin 4000000) :
    rowT tbl col (ix2 (0 : Fin 1) e) = tbl (ix1 (Cert.Spec.vert (col (ix1 e)))) := by
  unfold rowT
  rw [broadcastInDim_apply _ _ _ _ (ix1 e) (by intro a; match a with | ⟨0, _⟩ => rfl)]
  rw [gather_row1 _ rfl rfl rfl rfl _ _ e (by decide)]
  have h : (broadcastInDim S4000000x1 ![0] bcast_S4000000_S4000000x1_0
          (select (cmpi .slt col (broadcastInDim S4000000 ![] bcast_S_S4000000 (constantI S_ 32 0#32)))
            (addi col (broadcastInDim S4000000 ![] bcast_S_S4000000 (constantI S_ 32 2000000#32))) col)) (ixP e)
      = Scalar.select (IntOp.cmpi .slt (col (ix1 e)) 0#32) (IntOp.addi (col (ix1 e)) 2000000#32) (col (ix1 e)) := by
    rw [Idealize.ShloMosaic.StableHlo.Predicate.bcast_col1, ofFin_eq_ix1]
    rfl
  congr 2
  apply Fin.ext
  show min _ (2000000 - 1) = min _ 1999999
  rw [h]

/-- Six rows laid one above the other, read at row `f`. -/
private theorem cat6_apply {α : Type} (r0 r1 r2 r3 r4 r5 : S1x4000000.Idx → α)
    (f : Fin 6) (e : Fin 4000000) :
    concatenate S6x4000000 0 [⟨S1x4000000, r0⟩, ⟨S1x4000000, r1⟩, ⟨S1x4000000, r2⟩, ⟨S1x4000000, r3⟩,
        ⟨S1x4000000, r4⟩, ⟨S1x4000000, r5⟩]
        concatenates_S1x4000000_S1x4000000_S1x4000000_S1x4000000_S1x4000000_S1x4000000_S6x4000000_d0 (ix2 f e)
      = (![r0, r1, r2, r3, r4, r5] f) (ix2 (0 : Fin 1) e) := by
  refine concatenate_apply_piece 0 _ _ (ix2 f e) f.val (by have := f.isLt; simpa using this) S1x4000000 _ ?_ rfl f.val ?_
    (ix2 (0 : Fin 1) e) ?_ ?_
  · fin_cases f <;> rfl
  · fin_cases f <;> rfl
  · intro b hb
    match b with
    | ⟨0, _⟩ => exact absurd rfl hb
    | ⟨1, _⟩ => rfl
  · show f.val + 0 = f.val
    omega

/-- A coordinate column of the vertex table at a vertex. -/
private theorem ptsCol0_apply (pts : S2000000x2.Idx → EReal) (n : Fin 2000000) : ptsCol0 pts (ix1 n) = pts (ix2 n (0 : Fin 2)) := by
  show shapeCast S2000000 _ _ (ix1 n) = _
  rw [shapeCast_apply _ _ _ (ix2 n (0 : Fin 1)) (by rw [Shape.rowMajor_val_two, Shape.rowMajor_val_one]; show n.val * 1 + 0 = n.val; omega)]
  exact extractStridedSlice_apply _ _ _ _ _ (fun a => by match a with | ⟨0, _⟩ => exact (Nat.zero_add _).symm | ⟨1, _⟩ => rfl)
private theorem ptsCol1_apply (pts : S2000000x2.Idx → EReal) (n : Fin 2000000) : ptsCol1 pts (ix1 n) = pts (ix2 n (1 : Fin 2)) := by
  show shapeCast S2000000 _ _ (ix1 n) = _
  rw [shapeCast_apply _ _ _ (ix2 n (0 : Fin 1)) (by rw [Shape.rowMajor_val_two, Shape.rowMajor_val_one]; show n.val * 1 + 0 = n.val; omega)]
  exact extractStridedSlice_apply _ _ _ _ _ (fun a => by match a with | ⟨0, _⟩ => exact (Nat.zero_add _).symm | ⟨1, _⟩ => rfl)

/-- A corner column of the adjacency array at a simplex. -/
private theorem adjCol0_apply (adj : S4000000x3.Idx → BitVec 32) (e : Fin 4000000) : adjCol0 adj (ix1 e) = adj (ix2 e (0 : Fin 3)) := by
  show shapeCast S4000000 _ _ (ix1 e) = _
  rw [shapeCast_apply _ _ _ (ix2 e (0 : Fin 1)) (by rw [Shape.rowMajor_val_two, Shape.rowMajor_val_one]; show e.val * 1 + 0 = e.val; omega)]
  exact extractStridedSlice_apply _ _ _ _ _ (fun a => by match a with | ⟨0, _⟩ => exact (Nat.zero_add _).symm | ⟨1, _⟩ => rfl)
private theorem adjCol1_apply (adj : S4000000x3.Idx → BitVec 32) (e : Fin 4000000) : adjCol1 adj (ix1 e) = adj (ix2 e (1 : Fin 3)) := by
  show shapeCast S4000000 _ _ (ix1 e) = _
  rw [shapeCast_apply _ _ _ (ix2 e (0 : Fin 1)) (by rw [Shape.rowMajor_val_two, Shape.rowMajor_val_one]; show e.val * 1 + 0 = e.val; omega)]
  exact extractStridedSlice_apply _ _ _ _ _ (fun a => by match a with | ⟨0, _⟩ => exact (Nat.zero_add _).symm | ⟨1, _⟩ => rfl)
private theorem adjCol2_apply (adj : S4000000x3.Idx → BitVec 32) (e : Fin 4000000) : adjCol2 adj (ix1 e) = adj (ix2 e (2 : Fin 3)) := by
  show shapeCast S4000000 _ _ (ix1 e) = _
  rw [shapeCast_apply _ _ _ (ix2 e (0 : Fin 1)) (by rw [Shape.rowMajor_val_two, Shape.rowMajor_val_one]; show e.val * 1 + 0 = e.val; omega)]
  exact extractStridedSlice_apply _ _ _ _ _ (fun a => by match a with | ⟨0, _⟩ => exact (Nat.zero_add _).symm | ⟨1, _⟩ => rfl)

set_option maxHeartbeats 4000000 in
/-- The feature array as a term over the two argument arrays: the six rows, each a coordinate column read at a corner
    column, laid one above the other. -/
private theorem feat_read :
    (E0 m c (Proc.devRef .tc main_v58) : S6x4000000.Idx → EReal)
      = concatenate S6x4000000 0
          [⟨S1x4000000, rowT (ptsCol0 (m ((c : Thread nD τ).loc main_arg0))) (adjCol0 (m ((c : Thread nD τ).loc main_arg1)))⟩,
           ⟨S1x4000000, rowT (ptsCol1 (m ((c : Thread nD τ).loc main_arg0))) (adjCol0 (m ((c : Thread nD τ).loc main_arg1)))⟩,
           ⟨S1x4000000, rowT (ptsCol0 (m ((c : Thread nD τ).loc main_arg0))) (adjCol1 (m ((c : Thread nD τ).loc main_arg1)))⟩,
           ⟨S1x4000000, rowT (ptsCol1 (m ((c : Thread nD τ).loc main_arg0))) (adjCol1 (m ((c : Thread nD τ).loc main_arg1)))⟩,
           ⟨S1x4000000, rowT (ptsCol0 (m ((c : Thread nD τ).loc main_arg0))) (adjCol2 (m ((c : Thread nD τ).loc main_arg1)))⟩,
           ⟨S1x4000000, rowT (ptsCol1 (m ((c : Thread nD τ).loc main_arg0))) (adjCol2 (m ((c : Thread nD τ).loc main_arg1)))⟩]
          concatenates_S1x4000000_S1x4000000_S1x4000000_S1x4000000_S1x4000000_S1x4000000_S6x4000000_d0 := by
  dsimp only [E0, hostOps0]
  simp (disch := decide) only [StableHlo.after_cons, StableHlo.after_nil,
    StableHlo.nullary_result', StableHlo.unary_result', StableHlo.binary_result', StableHlo.ternary_result',
    StableHlo.reshape_result', Cert.LibNary6.nary6_result',
    StableHlo.nullary_result_ne', StableHlo.unary_result_ne', StableHlo.binary_result_ne', StableHlo.ternary_result_ne',
    StableHlo.reshape_result_ne', StableHlo.nary_result_ne']
  rfl

/-- The six rows over any two arrays, read at row `f` and column `e`: feature `f` of simplex `e`. -/
private theorem rows_apply (pts : S2000000x2.Idx → EReal) (adj : S4000000x3.Idx → BitVec 32) (f : Fin 6) (e : Fin 4000000) :
    concatenate S6x4000000 0
        [⟨S1x4000000, rowT (ptsCol0 pts) (adjCol0 adj)⟩, ⟨S1x4000000, rowT (ptsCol1 pts) (adjCol0 adj)⟩,
         ⟨S1x4000000, rowT (ptsCol0 pts) (adjCol1 adj)⟩, ⟨S1x4000000, rowT (ptsCol1 pts) (adjCol1 adj)⟩,
         ⟨S1x4000000, rowT (ptsCol0 pts) (adjCol2 adj)⟩, ⟨S1x4000000, rowT (ptsCol1 pts) (adjCol2 adj)⟩]
        concatenates_S1x4000000_S1x4000000_S1x4000000_S1x4000000_S1x4000000_S1x4000000_S6x4000000_d0 (ix2 f e)
      = Cert.Spec.feat pts adj e f := by
  rw [cat6_apply]
  match f with
  | ⟨0, _⟩ =>
    refine (rowT_apply (ptsCol0 pts) (adjCol0 adj) e).trans ?_
    rw [ptsCol0_apply, adjCol0_apply]
    show _ = pts (ix2 (Cert.Spec.vert (adj (ix2 e (⟨0 / 2, _⟩ : Fin 3)))) (⟨0 % 2, _⟩ : Fin 2))
    rfl
  | ⟨1, _⟩ =>
    refine (rowT_apply (ptsCol1 pts) (adjCol0 adj) e).trans ?_
    rw [ptsCol1_apply, adjCol0_apply]
    show _ = pts (ix2 (Cert.Spec.vert (adj (ix2 e (⟨1 / 2, _⟩ : Fin 3)))) (⟨1 % 2, _⟩ : Fin 2))
    rfl
  | ⟨2, _⟩ =>
    refine (rowT_apply (ptsCol0 pts) (adjCol1 adj) e).trans ?_
    rw [ptsCol0_apply, adjCol1_apply]
    show _ = pts (ix2 (Cert.Spec.vert (adj (ix2 e (⟨2 / 2, _⟩ : Fin 3)))) (⟨2 % 2, _⟩ : Fin 2))
    rfl
  | ⟨3, _⟩ =>
    refine (rowT_apply (ptsCol1 pts) (adjCol1 adj) e).trans ?_
    rw [ptsCol1_apply, adjCol1_apply]
    show _ = pts (ix2 (Cert.Spec.vert (adj (ix2 e (⟨3 / 2, _⟩ : Fin 3)))) (⟨3 % 2, _⟩ : Fin 2))
    rfl
  | ⟨4, _⟩ =>
    refine (rowT_apply (ptsCol0 pts) (adjCol2 adj) e).trans ?_
    rw [ptsCol0_apply, adjCol2_apply]
    show _ = pts (ix2 (Cert.Spec.vert (adj (ix2 e (⟨4 / 2, _⟩ : Fin 3)))) (⟨4 % 2, _⟩ : Fin 2))
    rfl
  | ⟨5, _⟩ =>
    refine (rowT_apply (ptsCol1 pts) (adjCol2 adj) e).trans ?_
    rw [ptsCol1_apply, adjCol2_apply]
    show _ = pts (ix2 (Cert.Spec.vert (adj (ix2 e (⟨5 / 2, _⟩ : Fin 3)))) (⟨5 % 2, _⟩ : Fin 2))
    rfl

/-- The feature array: row `f`, column `e` is feature `f` of simplex `e`. -/
theorem feat_eq (f : Fin 6) (e : Fin 4000000) :
    (E0 m c (Proc.devRef .tc main_v58) : S6x4000000.Idx → EReal) (ix2 f e)
      = Cert.Spec.feat (m ((c : Thread nD τ).loc main_arg0)) (m ((c : Thread nD τ).loc main_arg1)) e f := by
  rw [feat_read]
  exact rows_apply _ _ f e

end Cert.KernelIdeal.Host

end
-- ==== Proof.KIValue.lean ====
/-
  THE RESULT BLOCK AFTER THE REGION. Grid point `t` of the region reads columns `80000 t … 80000 t + 79999` of the
  feature array and the whole of the eight small arrays, and writes back the same columns of the [3, 4000000] result
  block; entry `(k, e)` of what it writes is the four dense layers applied to column `e` of the features, that is the
  weight of corner `k` of simplex `e` (`Spec.weight`). The 50 points' blocks tile the result block, so after the region
  it holds the weights of all simplices, corner-major.
-/
import proofs.«135624_j69853348102547_1_alg».proof.Proof.KIFrame
import proofs.«135624_j69853348102547_1_alg».proof.Proof.KIBody
import proofs.«135624_j69853348102547_1_alg».proof.Proof.KIHost
import proofs.«135624_j69853348102547_1_alg».proof.Proof.KIHostW
import proofs.«135624_j69853348102547_1_alg».proof.Proof.Spec
import proofs.«135624_j69853348102547_1_alg».proof.Proof.LibGatherScatter
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.KernelIdeal.Host
open Idealize.ShloMosaic.StableHlo.Predicate (ixP)

variable (m : (ℓ : Loc nD τ sig) → Buf (Elt Ideal) ℓ) (ρ : Dev nD → PrngReg)

theorem hz : (![0, 0] : Fin 2 → Nat) = fun _ => 0 := funext fun a => by fin_cases a <;> rfl

/-- The region-entry contents are the contents after the first stretch of host operations. -/
theorem V0_eq (c : Dev nD) : V0 (F := Ideal) m c = E0 m c := rfl

/-- The result block after the region: entry `(k, e)` is the weight of corner `k` of simplex `e`. -/
def wT (c : Dev nD) : S3x4000000.Idx → EReal := fun i =>
  Cert.Spec.weight (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9)) (i 1) (i 0)

/-- The printed index maps over the grid: the feature window and the result window move along the columns with the
    point; the eight small windows stay at block (0, 0). -/
theorem idx_facts : ∀ t : Fin cfg0.N,
    win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The feature block at point `t`: column `e` of the block is column `80000 t + e` of the feature array. -/
theorem iblk0_apply (c : Dev nD) (t : Fin cfg0.N) (f : Fin 6) (e : Fin 80000) (E : Fin 4000000)
    (hE : E.val = t.val * 80000 + e.val) :
    (iblk m c 0 t : Vec Ideal S6x80000 .f32) (ix2 f e)
      = Cert.Spec.feat (m ((c : Thread nD τ).loc main_arg0)) (m ((c : Thread nD τ).loc main_arg1)) E f := by
  obtain ⟨h0, h1, -⟩ := idx_facts t
  rw [← feat_eq m c f E]
  unfold iblk
  rw [View.read_apply]
  show V m c main_v58 _ = E0 m c (Proc.devRef .tc main_v58) _
  unfold V
  rw [V0_eq]
  congr 1
  funext a
  apply Fin.ext
  match a with
  | ⟨0, _⟩ => show win0_0.index t 0 * 6 + 1 * f.val = f.val; rw [h0]; omega
  | ⟨1, _⟩ => show win0_0.index t 1 * 80000 + 1 * e.val = E.val; rw [h1, hE]; omega

/-- A small window's block is its whole array, at every point. -/
theorem iblk1_apply (c : Dev nD) (t : Fin cfg0.N) (j : Fin 8) (a : Fin 6) :
    (iblk m c 1 t : Vec Ideal S8x6 .f32) (ix2 j a) = m ((c : Thread nD τ).loc main_arg2) (ix2 a j) := by
  obtain ⟨-, -, -, -, h0, h1, -⟩ := idx_facts t
  rw [← w1t_eq m c j a]
  unfold iblk
  rw [View.read_apply]
  show V m c main_v59 _ = E0 m c (Proc.devRef .tc main_v59) _
  unfold V
  rw [V0_eq]
  congr 1
  funext b
  apply Fin.ext
  match b with
  | ⟨0, _⟩ => show win0_1.index t 0 * 8 + 1 * j.val = j.val; rw [h0]; omega
  | ⟨1, _⟩ => show win0_1.index t 1 * 6 + 1 * a.val = a.val; rw [h1]; omega
theorem iblk2_apply (c : Dev nD) (t : Fin cfg0.N) (j : Fin 8) :
    (iblk m c 2 t : Vec Ideal S8x1 .f32) (ix2 j (0 : Fin 1)) = m ((c : Thread nD τ).loc main_arg3) (ix1 j) := by
  obtain ⟨-, -, -, -, -, -, h0, h1, -⟩ := idx_facts t
  rw [← b1c_eq m c j]
  unfold iblk
  rw [View.read_apply]
  show V m c main_v63 _ = E0 m c (Proc.devRef .tc main_v63) _
  unfold V
  rw [V0_eq]
  congr 1
  funext b
  apply Fin.ext
  match b with
  | ⟨0, _⟩ => show win0_2.index t 0 * 8 + 1 * j.val = j.val; rw [h0]; omega
  | ⟨1, _⟩ => show win0_2.index t 1 * 1 + 1 * 0 = 0; rw [h1]
theorem iblk3_apply (c : Dev nD) (t : Fin cfg0.N) (j : Fin 8) (a : Fin 8) :
    (iblk m c 3 t : Vec Ideal S8x8 .f32) (ix2 j a) = m ((c : Thread nD τ).loc main_arg4) (ix2 a j) := by
  obtain ⟨-, -, -, -, -, -, -, -, h0, h1, -⟩ := idx_facts t
  rw [← w2t_eq m c j a]
  unfold iblk
  rw [View.read_apply]
  show V m c main_v60 _ = E0 m c (Proc.devRef .tc main_v60) _
  unfold V
  rw [V0_eq]
  congr 1
  funext b
  apply Fin.ext
  match b with
  | ⟨0, _⟩ => show win0_3.index t 0 * 8 + 1 * j.val = j.val; rw [h0]; omega
  | ⟨1, _⟩ => show win0_3.index t 1 * 8 + 1 * a.val = a.val; rw [h1]; omega
theorem iblk4_apply (c : Dev nD) (t : Fin cfg0.N) (j : Fin 8) :
    (iblk m c 4 t : Vec Ideal S8x1 .f32) (ix2 j (0 : Fin 1)) = m ((c : Thread nD τ).loc main_arg5) (ix1 j) := by
  obtain ⟨-, -, -, -, -, -, -, -, -, -, h0, h1, -⟩ := idx_facts t
  rw [← b2c_eq m c j]
  unfold iblk
  rw [View.read_apply]
  show V m c main_v64 _ = E0 m c (Proc.devRef .tc main_v64) _
  unfold V
  rw [V0_eq]
  congr 1
  funext b
  apply Fin.ext
  match b with
  | ⟨0, _⟩ => show win0_4.index t 0 * 8 + 1 * j.val = j.val; rw [h0]; omega
  | ⟨1, _⟩ => show win0_4.index t 1 * 1 + 1 * 0 = 0; rw [h1]
theorem iblk5_apply (c : Dev nD) (t : Fin cfg0.N) (j : Fin 8) (a : Fin 8) :
    (iblk m c 5 t : Vec Ideal S8x8 .f32) (ix2 j a) = m ((c : Thread nD τ).loc main_arg6) (ix2 a j) := by
  obtain ⟨-, -, -, -, -, -, -, -, -, -, -, -, h0, h1, -⟩ := idx_facts t
  rw [← w3t_eq m c j a]
  unfold iblk
  rw [View.read_apply]
  show V m c main_v61 _ = E0 m c (Proc.devRef .tc main_v61) _
  unfold V
  rw [V0_eq]
  congr 1
  funext b
  apply Fin.ext
  match b with
  | ⟨0, _⟩ => show win0_5.index t 0 * 8 + 1 * j.val = j.val; rw [h0]; omega
  | ⟨1, _⟩ => show win0_5.index t 1 * 8 + 1 * a.val = a.val; rw [h1]; omega
theorem iblk6_apply (c : Dev nD) (t : Fin cfg0.N) (j : Fin 8) :
    (iblk m c 6 t : Vec Ideal S8x1 .f32) (ix2 j (0 : Fin 1)) = m ((c : Thread nD τ).loc main_arg7) (ix1 j) := by
  obtain ⟨-, -, -, -, -, -, -, -, -, -, -, -, -, -, h0, h1, -⟩ := idx_facts t
  rw [← b3c_eq m c j]
  unfold iblk
  rw [View.read_apply]
  show V m c main_v65 _ = E0 m c (Proc.devRef .tc main_v65) _
  unfold V
  rw [V0_eq]
  congr 1
  funext b
  apply Fin.ext
  match b with
  | ⟨0, _⟩ => show win0_6.index t 0 * 8 + 1 * j.val = j.val; rw [h0]; omega
  | ⟨1, _⟩ => show win0_6.index t 1 * 1 + 1 * 0 = 0; rw [h1]
theorem iblk7_apply (c : Dev nD) (t : Fin cfg0.N) (j : Fin 3) (a : Fin 8) :
    (iblk m c 7 t : Vec Ideal S3x8 .f32) (ix2 j a) = m ((c : Thread nD τ).loc main_arg8) (ix2 a j) := by
  obtain ⟨-, -, -, -, -, -, -, -, -, -, -, -, -, -, -, -, h0, h1, -⟩ := idx_facts t
  rw [← w4t_eq m c j a]
  unfold iblk
  rw [View.read_apply]
  show V m c main_v62 _ = E0 m c (Proc.devRef .tc main_v62) _
  unfold V
  rw [V0_eq]
  congr 1
  funext b
  apply Fin.ext
  match b with
  | ⟨0, _⟩ => show win0_7.index t 0 * 3 + 1 * j.val = j.val; rw [h0]; omega
  | ⟨1, _⟩ => show win0_7.index t 1 * 8 + 1 * a.val = a.val; rw [h1]; omega
theorem iblk8_apply (c : Dev nD) (t : Fin cfg0.N) (j : Fin 3) :
    (iblk m c 8 t : Vec Ideal S3x1 .f32) (ix2 j (0 : Fin 1)) = m ((c : Thread nD τ).loc main_arg9) (ix1 j) := by
  obtain ⟨-, -, -, -, -, -, -, -, -, -, -, -, -, -, -, -, -, -, h0, h1⟩ := idx_facts t
  rw [← b4c_eq m c j]
  unfold iblk
  rw [View.read_apply]
  show V m c main_v66 _ = E0 m c (Proc.devRef .tc main_v66) _
  unfold V
  rw [V0_eq]
  congr 1
  funext b
  apply Fin.ext
  match b with
  | ⟨0, _⟩ => show win0_8.index t 0 * 3 + 1 * j.val = j.val; rw [h0]; omega
  | ⟨1, _⟩ => show win0_8.index t 1 * 1 + 1 * 0 = 0; rw [h1]

/-- WHAT POINT `t` WRITES BACK is block `t` of the weights, corner-major. -/
theorem flushed9_eq (c : Dev nD) (t : Fin cfg0.N) :
    (dats m 0 c).flushed 9 t = ((cfg0.win 9).blk t).view.read (Elt Ideal) (wT m c) := by
  obtain ⟨-, -, h0, h1, -⟩ := idx_facts t
  show (cfg0.win 9).cut (grid0.coords t) ((dats m 0 c).after 9 t) = _
  rw [after0_9]
  unfold out0_9
  rw [View.canon_unit_zero hz]
  simp only [View.ld_unit_zero (S := S6x80000) hz, View.ld_unit_zero (S := S8x6) hz, View.ld_unit_zero (S := S8x1) hz,
    View.ld_unit_zero (S := S8x8) hz, View.ld_unit_zero (S := S3x8) hz, View.ld_unit_zero (S := S3x1) hz]
  funext y
  obtain ⟨k, e, rfl⟩ : ∃ (k : Fin 3) (e : Fin 80000), y = ix2 k e := ⟨y 0, y 1, eq_ix2 y⟩
  have ht : t.val < 50 := lt_of_lt_of_eq t.isLt N_0
  have hlt : t.val * 80000 + e.val < 4000000 := by
    have := e.isLt; omega
  show k0_pay1 (F := Ideal) (k0_pay2 (F := Ideal) (iblk m c 0 t) (iblk m c 1 t) (iblk m c 2 t) (iblk m c 3 t)
      (iblk m c 4 t) (iblk m c 5 t) (iblk m c 6 t) (iblk m c 7 t)) (iblk m c 8 t) (ix2 k e)
    = wT m c (((cfg0.win 9).blk t).view.emb (ix2 k e))
  refine (Cert.KernelIdeal.Body.pay_apply (iblk m c 0 t) (iblk m c 1 t) (iblk m c 2 t) (iblk m c 3 t)
      (iblk m c 4 t) (iblk m c 5 t) (iblk m c 6 t) (iblk m c 7 t) (iblk m c 8 t) k e).trans ?_
  have hemb : ((cfg0.win 9).blk t).view.emb (ix2 k e) = ix2 k (⟨t.val * 80000 + e.val, hlt⟩ : Fin 4000000) := by
    funext a
    apply Fin.ext
    match a with
    | ⟨0, _⟩ => show win0_9.index t 0 * 3 + 1 * k.val = k.val; rw [h0]; omega
    | ⟨1, _⟩ => show win0_9.index t 1 * 80000 + 1 * e.val = t.val * 80000 + e.val; rw [h1]; omega
  rw [hemb]
  unfold wT Cert.Spec.weight
  simp only [iblk1_apply, iblk2_apply, iblk3_apply, iblk4_apply, iblk5_apply, iblk6_apply, iblk7_apply, iblk8_apply]
  congr 1
  funext f
  exact iblk0_apply m c t f e _ rfl

/-- An index of the result block is in point `t`'s block iff each coordinate is in the block's range on its axis. -/
theorem mem_blk9 (t : Fin cfg0.N) (i : S3x4000000.Idx) :
    i ∈ ((cfg0.win 9).blk t).view.set ↔ ∀ a : Fin 2, win0_9.index t a * S3x80000.size a ≤ (i a).val ∧ (i a).val < win0_9.index t a * S3x80000.size a + S3x80000.size a := by
  show i ∈ ((View.whole main_v67).slice (win0_9.rect t)).set ↔ _
  rw [View.set_slice_whole, Rect.mem_set_unit]
  exact Iff.rfl

/-- THE RESULT BLOCK after the region: the weights of all simplices, corner-major (the 50 blocks tile it). -/
theorem final9 (c : Dev nD) : (dats m 0 c).arrAt 9 cfg0.N = wT m c :=
  (dats m 0 c).arrAt_eq_of_cover 9 (wT m c) (fun t _ => flushed9_eq m c t) fun i => by
    have hi0 : (i 0).val < 3 := (i 0).isLt
    have hi1 : (i 1).val < 4000000 := (i 1).isLt
    have hN : cfg0.N = 50 := N_0
    refine ⟨⟨(i 1).val / 80000, by rw [hN]; omega⟩, flush0_9 _, ?_⟩
    rw [mem_blk9]
    obtain ⟨-, -, h0, h1, -⟩ := idx_facts ⟨(i 1).val / 80000, by rw [hN]; omega⟩
    intro a
    match a with
    | ⟨0, _⟩ => show win0_9.index _ (0 : Fin 2) * 3 ≤ (i 0).val ∧ (i 0).val < win0_9.index _ (0 : Fin 2) * 3 + 3; rw [h0]; omega
    | ⟨1, _⟩ => show win0_9.index _ (1 : Fin 2) * 80000 ≤ (i 1).val ∧ (i 1).val < win0_9.index _ (1 : Fin 2) * 80000 + 80000; rw [h1]; show (i 1).val / 80000 * 80000 ≤ (i 1).val ∧ (i 1).val < (i 1).val / 80000 * 80000 + 80000; omega

end Cert.KernelIdeal.KValue

end
-- ==== Proof.KITail.lean ====
/-
  AFTER THE REGION. The host operations after the region read the [3, 4000000] block of weights row-major as a flat
  list of 12000000, pair position `k * 4000000 + e` with adjacency word `(e, k)` (the three adjacency columns laid end to
  end), and scatter-add the list into zeros: vertex `n` ends at zero plus the weights of the corners whose word reads
  signed as `n`, the corners enumerated corner-major (`Spec.sum_cornerMajor`). That is `Spec.G`.
-/
import proofs.«135624_j69853348102547_1_alg».proof.Proof.KIValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.KernelIdeal.Host
open Idealize.ShloMosaic.StableHlo.Predicate (ixP)

variable (m : (ℓ : Loc nD τ sig) → Buf (Elt Ideal) ℓ) (ρ : Dev nD → PrngReg)

/-- The host's accumulating scatter at the extended reals is the exact sum. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

/-- The host operations after the region, as one function of the three adjacency columns and the result block. -/
def tailFn (A0 A1 A2 : IVec S4000000 32) (Y : FVec Ideal S3x4000000 .f32) : FVec Ideal S2000000 .f32 :=
  Host.scatterAdd scatter_S2000000_S12000000x1_S12000000_n_0_0_1
    (broadcastInDim S2000000 ![] bcast_S_S2000000 (constant (F := Ideal) S_ .f32 0x00000000#32))
    (broadcastInDim S12000000x1 ![0] bcast_S12000000_S12000000x1_0
      (concatenate S12000000 0 [⟨S4000000, A0⟩, ⟨S4000000, A1⟩, ⟨S4000000, A2⟩]
        concatenates_S4000000_S4000000_S4000000_S12000000_d0))
    (shapeCast S12000000 Y shapeCasts_S3x4000000_S12000000)

/-- Vertex `n` of that function: zero plus the block's entries `(k, e)` over the corners `(e, k)` whose adjacency word
    reads signed as `n`, when the three columns are the columns of one adjacency array. -/
theorem tailFn_apply (adj : S4000000x3.Idx → BitVec 32) (A0 A1 A2 : IVec S4000000 32)
    (h0 : ∀ e, A0 (ix1 e) = adj (ix2 e (0 : Fin 3))) (h1 : ∀ e, A1 (ix1 e) = adj (ix2 e (1 : Fin 3)))
    (h2 : ∀ e, A2 (ix1 e) = adj (ix2 e (2 : Fin 3))) (Y : FVec Ideal S3x4000000 .f32) (n : Fin 2000000) :
    tailFn A0 A1 A2 Y (ix1 n)
      = Ideal.ofBits .f32 0x00000000#32
        + ∑ p ∈ Finset.univ.filter (Cert.Spec.hits adj n.val), Y (ix2 p.2 p.1) := by
  unfold tailFn
  rw [scatterAdd_ideal, Idealize.ShloMosaic.RowOps.scatterAdd_row1 _ rfl rfl rfl rfl]
  refine congrArg₂ (· + ·) rfl ?_
  refine Eq.trans ?_ (Cert.Spec.sum_cornerMajor (Cert.Spec.hits adj n.val) (fun e k => Y (ix2 k e)))
  refine Finset.sum_congr (Finset.filter_congr fun j _ => ?_) fun j _ => ?_
  · show (broadcastInDim S12000000x1 ![0] bcast_S12000000_S12000000x1_0
        (concatenate S12000000 0 [⟨S4000000, A0⟩, ⟨S4000000, A1⟩, ⟨S4000000, A2⟩]
          concatenates_S4000000_S4000000_S4000000_S12000000_d0) (ixP j)).toInt = (n.val : Int) ↔ _
    rw [tailIdx_apply adj A0 A1 A2 h0 h1 h2 j]
    rfl
  · exact tailUpd_apply Y j

set_option maxHeartbeats 4000000 in
/-- The second stretch of host operations, run from any contents, leaves `tailFn` of what it found in the three column
    buffers and in the result block's buffer. -/
theorem tail_after (BB : Valuation τ sig (Elt Ideal)) :
    StableHlo.after (hostOps1 (F := Ideal)) BB (Proc.devRef .tc main_v72)
      = tailFn (BB (Proc.devRef .tc main_v1)) (BB (Proc.devRef .tc main_v3)) (BB (Proc.devRef .tc main_v5))
          (BB (Proc.devRef .tc main_v67)) := by
  after_results
  rfl

/-- The contents the second stretch of host operations starts from: the region's arrays at the proof data's, every
    other buffer as the region found it. -/
abbrev B (c : Dev nD) : Valuation τ sig (Elt Ideal) :=
  Pipeline.withArrays spec0 c (V0 m c) (fun w => (dats m 0 c).arrAt w cfg0.N)

/-- The result opened at one vertex. -/
private theorem G_apply (x0 : FVec Ideal S2000000x2 .f32) (x1 : IVec S4000000x3 32) (x2 : FVec Ideal S6x8 .f32) (x3 : FVec Ideal S8 .f32)
    (x4 : FVec Ideal S8x8 .f32) (x5 : FVec Ideal S8 .f32) (x6 : FVec Ideal S8x8 .f32) (x7 : FVec Ideal S8 .f32)
    (x8 : FVec Ideal S8x3 .f32) (x9 : FVec Ideal S3 .f32) (n : Fin 2000000) :
    Cert.Spec.G x0 x1 x2 x3 x4 x5 x6 x7 x8 x9 (ix1 n)
      = Ideal.ofBits .f32 0x00000000#32
        + ∑ p ∈ Finset.univ.filter (Cert.Spec.hits x1 n.val), Cert.Spec.weight x0 x1 x2 x3 x4 x5 x6 x7 x8 x9 p.1 p.2 := rfl

/-- What the host operations after the region leave in the result buffer: `Spec.G` of the argument arrays. -/
theorem tail_eq (c : Dev nD) :
    Pipeline.afterTail₀ cfgs (dats m) 0 (V0 m) [hostOps1] c main_v72
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  have h67 : B m c (Proc.devRef .tc main_v67) = wT m c :=
    (Pipeline.withArrays_arr spec0 launch0.win.arr_inj c (V0 m c) (fun w => (dats m 0 c).arrAt w cfg0.N) 9).trans (final9 m c)
  have h1 : B m c (Proc.devRef .tc main_v1) = E0 m c (Proc.devRef .tc main_v1) :=
    Pipeline.withArrays_of_ne spec0 c (V0 m c) (fun w => (dats m 0 c).arrAt w cfg0.N) main_v1 (by decide)
  have h3 : B m c (Proc.devRef .tc main_v3) = E0 m c (Proc.devRef .tc main_v3) :=
    Pipeline.withArrays_of_ne spec0 c (V0 m c) (fun w => (dats m 0 c).arrAt w cfg0.N) main_v3 (by decide)
  have h5 : B m c (Proc.devRef .tc main_v5) = E0 m c (Proc.devRef .tc main_v5) :=
    Pipeline.withArrays_of_ne spec0 c (V0 m c) (fun w => (dats m 0 c).arrAt w cfg0.N) main_v5 (by decide)
  unfold Pipeline.afterTail₀
  show StableHlo.after hostOps1 (B m c) (Proc.devRef .tc main_v72) = _
  rw [tail_after (B m c), h1, h3, h5, h67]
  funext i
  obtain ⟨n, rfl⟩ : ∃ n : Fin 2000000, i = ix1 n := ⟨i 0, eq_ix1 i⟩
  rw [G_apply, tailFn_apply (m ((c : Thread nD τ).loc main_arg1)) _ _ _ (col0_eq m c) (col1_eq m c) (col2_eq m c)]
  refine congrArg (HAdd.hAdd (Ideal.ofBits .f32 0x00000000#32)) (Finset.sum_congr rfl fun p _ => ?_)
  rfl

/-- The run, read: the result buffer at `Spec.G` of the arguments, the arguments unchanged. -/
theorem run : θ_run defs (onTc (τ := τ) (main (F := Ideal))) ⟨m, fun _ => 0, ρ⟩ fun r => ∀ c : Dev nD,
      r.2.mem ((c.tc : Thread nD τ).loc main_v72)
        = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
      ∧ ∀ b ∈ args, r.2.mem ((c.tc : Thread nD τ).loc b) = m ((c.tc : Thread nD τ).loc b) :=
  (θ_run defs _ _).mono (fun _ h c =>
    ⟨((h c).2 main_v72 (Pipeline.mem_restRefs_of main_v72 (by decide) (by decide))).trans (tail_eq m c),
     fun b hb => ((h c).2 b (by
        simp only [args, List.mem_cons, List.mem_nil_iff, or_false] at hb
        rcases hb with rfl | rfl | rfl | rfl | rfl | rfl | rfl | rfl | rfl | rfl
        all_goals exact Pipeline.mem_restRefs_of _ (by decide) (by decide))).trans (W_arg m (dats m) c b hb)⟩)
    (run_main m ρ)

end Cert.KernelIdeal.KValue

end
-- ==== Proof.LibGather3.lean ====
/-
  ROWS READ THROUGH A TABLE OF ROW NUMBERS. A host `stablehlo.gather` of an [N × D] operand whose start indices are an
  [n × k × 1] array of row numbers — operand axis 0 collapsed and start-indexed, operand axis 1 whole and read by the
  result's offset axis 2, the index vector on axis 2 — reads, at result element (e, c, j), the operand's element (r, j),
  where r is start index (e, c) read signed and clamped into the operand (`gather_rows3`).
-/
import Idealize.ShloMosaic.Lib.ValueIdx
import Idealize.ShloMosaic.PureOps.Ideal.Laws

open scoped BigOperators

namespace Idealize.ShloMosaic.RowOps3

open Idealize.ShloMosaic Idealize.ShloMosaic.ValueIdx

/-- Entry (e, c) of an [n, k, 1] array of start indices, read signed and clamped into [0, N-1]. -/
def clampRow3 {n k w : Nat} (N : Nat) (hN : 0 < N) (idx : IVec ⟨3, ![n, k, 1]⟩ w) (e : Fin n) (c : Fin k) : Fin N :=
  ⟨min (idx (ix3 e c (0 : Fin 1))).toInt.toNat (N - 1), by omega⟩

/-- Every element of a one-element list is that element. -/
private theorem getElem_singleton_of_eq {β : Type} {l : List β} {b : β} (h : l = [b]) (i : Nat) (hi : i < l.length) :
    l[i] = b :=
  List.mem_singleton.1 (h ▸ List.getElem_mem hi)

/-- The two elements of a two-element list, by position. -/
private theorem getElem_pair_of_eq {β : Type} {l : List β} {a b : β} (h : l = [a, b]) (i : Nat) (hi : i < l.length) :
    (i = 0 → l[i] = a) ∧ (i = 1 → l[i] = b) := by
  subst h
  constructor
  · intro h0; subst h0; rfl
  · intro h1; subst h1; rfl

/-- THE ROW TAKE THROUGH A TABLE. A `stablehlo.gather` of an [N × D] operand whose start indices are an [n × k × 1]
    array of row numbers: operand axis 0 collapsed and start-indexed, operand axis 1 whole (slice sizes [1, D]) and read
    by the result's offset axis 2, no batching axes, the index vector on axis 2. Result element (e, c, j) is the
    operand's element (r, j), r the start index at (e, c) read signed and clamped into [0, N − 1]. -/
theorem gather_rows3 {α : Type} {N D n k w : Nat} (d : GatherDims ⟨2, ![N, D]⟩ ⟨3, ![n, k, 1]⟩ ⟨3, ![n, k, D]⟩)
    (hoff : d.offsetDims = [2]) (hcoll : d.collapsedSliceDims = [0]) (hob : d.operandBatchingDims = [])
    (hsim : d.startIndexMap = [0]) (hivd : d.indexVectorDim = 2) (hss : d.sliceSizes = ![1, D])
    (x : (⟨2, ![N, D]⟩ : Shape).Idx → α) (idx : IVec ⟨3, ![n, k, 1]⟩ w) (e : Fin n) (c : Fin k) (j : Fin D)
    (hN : 0 < N) :
    Host.gather d x idx (ix3 e c j) = x (ix2 (clampRow3 N hN idx e c) j) := by
  have hb : ∀ a : Fin 2, a ∉ d.operandBatchingDims := fun a => by rw [hob]; exact List.not_mem_nil
  -- the result's batch axes: the two axes that are not the offset axis
  have hbd : d.batchDims = [0, 1] := by
    show Shape.kept _ d.offsetDims = [0, 1]
    rw [hoff]
    show (List.finRange 3).filter (fun a : Fin 3 => a ∉ [(2 : Fin 3)]) = [0, 1]
    decide
  -- the start indices' axes but the index vector's
  have hsk : d.siKept = [0, 1] := by
    show (List.finRange 3).filter (fun b : Fin 3 => b.val ≠ d.indexVectorDim) = [0, 1]
    rw [hivd]
    decide
  -- axis 0: collapsed and start-indexed, the clamped start alone
  have h0 : (d.operandIdx (ix3 e c j) idx (0 : Fin 2)).val = (clampRow3 N hN idx e c).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix3 e c j) idx 0 + d.batchCoord (ix3 e c j) 0 + d.offCoord (ix3 e c j) 0
      = min (idx (ix3 e c (0 : Fin 1))).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix3 e c (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 0 → ((ix3 e c j : (⟨3, ![n, k, D]⟩ : Shape).Idx) X).val = e.val :=
        fun X hX => by subst hX; rfl
      exact he _ ((getElem_pair_of_eq hbd _ _).1 (by rw [hsk]; rfl))
    | ⟨1, _⟩ =>
      unfold GatherDims.siIdx
      rw [dif_neg (by rw [hivd]; simp)]
      unfold GatherDims.siCoord
      apply Fin.ext
      simp only [Fin.val_cast]
      have he : ∀ X : Fin 3, X = 1 → ((ix3 e c j : (⟨3, ![n, k, D]⟩ : Shape).Idx) X).val = c.val :=
        fun X hX => by subst hX; rfl
      exact he _ ((getElem_pair_of_eq hbd _ _).2 (by rw [hsk]; rfl))
    | ⟨2, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix3 e c j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix3 e c j) idx 1 + d.batchCoord (ix3 e c j) 1 + d.offCoord (ix3 e c j) 1 = j.val
    rw [GatherDims.batchCoord_eq_zero _ _ _ (hb 1), Nat.add_zero]
    unfold GatherDims.start GatherDims.offCoord
    rw [dif_neg hm, dif_pos hk, Nat.zero_add]
    have hj : ∀ X : Fin 3, X = 2 → ((ix3 e c j : (⟨3, ![n, k, D]⟩ : Shape).Idx) X).val = j.val :=
      fun X hX => by subst hX; rfl
    exact hj _ (getElem_singleton_of_eq hoff _ _)
  unfold Host.gather
  congr 1
  funext a
  apply Fin.ext
  match a with
  | ⟨0, _⟩ => exact h0
  | ⟨1, _⟩ => exact h1

end Idealize.ShloMosaic.RowOps3
-- ==== Proof.RefRead.lean ====
/-
  THE REFERENCE COMPUTES `Spec.G`. The reference gathers, for every simplex and corner, the two coordinates of the named
  vertex (the adjacency word wrapped when negative and clamped), flattens them to six features, applies the four dense
  layers with `1 / (1 + exp (-x))` after each, and scatter-adds the three weights of every simplex, simplex-major, onto
  the vertices their adjacency words name when read signed. Index by index that is `Spec.G`: the host's quotient form of
  the logistic is `Ideal.logistic`, each product with a weight matrix is the sum over the contracted coordinate, and the
  simplex-major enumeration of the corners is `Spec.sum_simplexMajor`.
-/
import proofs.«135624_j69853348102547_1_alg».proof.Proof.Gen.ReferenceIdeal.Run
import proofs.«135624_j69853348102547_1_alg».proof.Proof.Gen.ReferenceIdeal.Read
import proofs.«135624_j69853348102547_1_alg».proof.Proof.Spec
import proofs.«135624_j69853348102547_1_alg».proof.Proof.LibGather3
import proofs.«135624_j69853348102547_1_alg».proof.Proof.LibGatherScatter
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx
open Cert.ReferenceIdeal.Read Idealize.ShloMosaic.StableHlo.Predicate

/-! ## The logistic in the host's quotient form -/

/-- `1 / (1 + exp (-(s + b)))`, with the constant one given by its word, is the logistic of `s + b`. -/
private theorem logistic_host (s b : EReal) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.addf s b))))
      = Ideal.logistic (s + b) := by
  show Ideal.div (Ideal.ofBits .f32 0x3F800000#32) (Ideal.ofBits .f32 0x3F800000#32 + Ideal.exp (-(s + b)))
    = Ideal.div 1 (1 + Ideal.exp (-(s + b)))
  rw [Ideal.ofBits_one_f32]

/-! ## Index maps at coordinates -/

private theorem lidx8 (e : Fin 4000000) (j : Fin 8) (k : Fin 6) : lidx_main_v8 (ix2 e j) k = ix2 e k := by
  funext a; match a with | ⟨0, _⟩ => rfl | ⟨1, _⟩ => rfl
private theorem ridx8 (e : Fin 4000000) (j : Fin 8) (k : Fin 6) : ridx_main_v8 (ix2 e j) k = ix2 k j := by
  funext a; match a with | ⟨0, _⟩ => rfl | ⟨1, _⟩ => rfl
private theorem lidx18 (e : Fin 4000000) (j : Fin 8) (k : Fin 8) : lidx_main_v18 (ix2 e j) k = ix2 e k := by
  funext a; match a with | ⟨0, _⟩ => rfl | ⟨1, _⟩ => rfl
private theorem ridx18 (e : Fin 4000000) (j : Fin 8) (k : Fin 8) : ridx_main_v18 (ix2 e j) k = ix2 k j := by
  funext a; match a with | ⟨0, _⟩ => rfl | ⟨1, _⟩ => rfl
private theorem lidx28 (e : Fin 4000000) (j : Fin 8) (k : Fin 8) : lidx_main_v28 (ix2 e j) k = ix2 e k := by
  funext a; match a with | ⟨0, _⟩ => rfl | ⟨1, _⟩ => rfl
private theorem ridx28 (e : Fin 4000000) (j : Fin 8) (k : Fin 8) : ridx_main_v28 (ix2 e j) k = ix2 k j := by
  funext a; match a with | ⟨0, _⟩ => rfl | ⟨1, _⟩ => rfl
private theorem lidx38 (e : Fin 4000000) (j : Fin 3) (k : Fin 8) : lidx_main_v38 (ix2 e j) k = ix2 e k := by
  funext a; match a with | ⟨0, _⟩ => rfl | ⟨1, _⟩ => rfl
private theorem ridx38 (e : Fin 4000000) (j : Fin 3) (k : Fin 8) : ridx_main_v38 (ix2 e j) k = ix2 k j := by
  funext a; match a with | ⟨0, _⟩ => rfl | ⟨1, _⟩ => rfl

/-- A bias broadcast along the rows reads the bias at the column. -/
private theorem bias10 (x3 : FVec Ideal S8 .f32) (e : Fin 4000000) (j : Fin 8) :
    val_main_v10 (F := Ideal) x3 (ix2 e j) = x3 (ix1 j) := by
  rw [val_main_v10_apply, val_main_v9_apply]
  congr 1; funext a; match a with | ⟨0, _⟩ => rfl
private theorem bias20 (x5 : FVec Ideal S8 .f32) (e : Fin 4000000) (j : Fin 8) :
    val_main_v20 (F := Ideal) x5 (ix2 e j) = x5 (ix1 j) := by
  rw [val_main_v20_apply, val_main_v19_apply]
  congr 1; funext a; match a with | ⟨0, _⟩ => rfl
private theorem bias30 (x7 : FVec Ideal S8 .f32) (e : Fin 4000000) (j : Fin 8) :
    val_main_v30 (F := Ideal) x7 (ix2 e j) = x7 (ix1 j) := by
  rw [val_main_v30_apply, val_main_v29_apply]
  congr 1; funext a; match a with | ⟨0, _⟩ => rfl
private theorem bias40 (x9 : FVec Ideal S3 .f32) (e : Fin 4000000) (j : Fin 3) :
    val_main_v40 (F := Ideal) x9 (ix2 e j) = x9 (ix1 j) := by
  rw [val_main_v40_apply, val_main_v39_apply]
  congr 1; funext a; match a with | ⟨0, _⟩ => rfl

/-! ## The gathered features -/

/-- The flattened feature position `(e, f)` is corner `f / 2`, coordinate `f % 2` of simplex `e`. -/
private theorem idx7 (e : Fin 4000000) (f : Fin 6) :
    idx_main_v7 (ix2 e f) = ix3 e (⟨f.val / 2, by omega⟩ : Fin 3) (⟨f.val % 2, by omega⟩ : Fin 2) := by
  have he := e.isLt
  have hf := f.isLt
  funext a
  apply Fin.ext
  match a with
  | ⟨0, _⟩ => show (e.val * 6 + f.val) / 6 = e.val; omega
  | ⟨1, _⟩ => show (e.val * 6 + f.val) / 2 % 3 = f.val / 2; omega
  | ⟨2, _⟩ => show (e.val * 6 + f.val) % 2 = f.val % 2; omega

private theorem idx5 (e : Fin 4000000) (c : Fin 3) : idx_main_v5 (ix3 e c (0 : Fin 1)) = ix2 e c := by
  funext a; match a with | ⟨0, _⟩ => rfl | ⟨1, _⟩ => rfl

/-- The start index of corner `(e, c)`, read signed and clamped, is the vertex the adjacency word names. -/
private theorem vert_eq (x1 : IVec S4000000x3 32) (e : Fin 4000000) (c : Fin 3) :
    RowOps3.clampRow3 2000000 (by omega) (val_main_v5 (F := Ideal) x1) e c = Spec.vert (x1 (ix2 e c)) := by
  apply Fin.ext
  show min (val_main_v5 (F := Ideal) x1 (ix3 e c (0 : Fin 1))).toInt.toNat (2000000 - 1)
    = min (Scalar.select (IntOp.cmpi .slt (x1 (ix2 e c)) 0#32) (IntOp.addi (x1 (ix2 e c)) 2000000#32)
        (x1 (ix2 e c))).toInt.toNat 1999999
  rw [val_main_v5_apply, idx5, val_main_v4_apply, val_main_v1_apply, val_main_v0_apply, val_main_c_apply,
    val_main_v3_apply, val_main_v2_apply, val_main_c_0_apply]

/-- Feature `f` of simplex `e`, as the reference gathers and flattens it. -/
private theorem feat_eq (x0 : FVec Ideal S2000000x2 .f32) (x1 : IVec S4000000x3 32) (e : Fin 4000000) (f : Fin 6) :
    val_main_v7 (F := Ideal) x0 x1 (ix2 e f) = Spec.feat x0 x1 e f := by
  rw [val_main_v7_apply, idx7]
  unfold val_main_v6
  rw [RowOps3.gather_rows3 _ rfl rfl rfl rfl rfl rfl x0 (val_main_v5 (F := Ideal) x1) e _ _ (by omega), vert_eq]
  rfl

/-! ## The four dense layers -/

/-- One dense layer, opened once. -/
private theorem dense_apply {K M : Nat} (W : Fin K → Fin M → EReal) (b : Fin M → EReal) (h : Fin K → EReal) (j : Fin M) :
    Spec.dense W b h j = Ideal.logistic ((∑ k : Fin K, h k * W k j) + b j) := rfl

/-- After the first layer. -/
private theorem layer1 (x0 : FVec Ideal S2000000x2 .f32) (x1 : IVec S4000000x3 32) (x2 : FVec Ideal S6x8 .f32) (x3 : FVec Ideal S8 .f32)
    (e : Fin 4000000) (j : Fin 8) :
    val_main_v17 (F := Ideal) x0 x1 x2 x3 (ix2 e j)
      = Spec.dense (fun a j => x2 (ix2 a j)) (fun j => x3 (ix1 j)) (Spec.feat x0 x1 e) j := by
  rw [val_main_v17_apply, val_main_v16_apply, val_main_cst_1_apply, val_main_v15_apply, val_main_v14_apply,
    val_main_cst_apply, val_main_v13_apply, val_main_v12_apply, val_main_v11_apply, logistic_host, bias10,
    val_main_v8_apply]
  unfold Spec.dense
  congr 2
  refine Finset.sum_congr rfl fun k _ => ?_
  rw [lidx8, ridx8, feat_eq]

/-- After the second layer. -/
private theorem layer2 (x0 : FVec Ideal S2000000x2 .f32) (x1 : IVec S4000000x3 32) (x2 : FVec Ideal S6x8 .f32) (x3 : FVec Ideal S8 .f32)
    (x4 : FVec Ideal S8x8 .f32) (x5 : FVec Ideal S8 .f32)
    (e : Fin 4000000) (j : Fin 8) :
    val_main_v27 (F := Ideal) x0 x1 x2 x3 x4 x5 (ix2 e j)
      = Spec.dense (fun a j => x4 (ix2 a j)) (fun j => x5 (ix1 j))
          (Spec.dense (fun a j => x2 (ix2 a j)) (fun j => x3 (ix1 j)) (Spec.feat x0 x1 e)) j := by
  rw [val_main_v27_apply, val_main_v26_apply, val_main_cst_3_apply, val_main_v25_apply, val_main_v24_apply,
    val_main_cst_2_apply, val_main_v23_apply, val_main_v22_apply, val_main_v21_apply, logistic_host, bias20,
    val_main_v18_apply]
  rw [dense_apply]
  congr 2
  refine Finset.sum_congr rfl fun k _ => ?_
  rw [lidx18, ridx18, layer1]

/-- After the third layer. -/
private theorem layer3 (x0 : FVec Ideal S2000000x2 .f32) (x1 : IVec S4000000x3 32) (x2 : FVec Ideal S6x8 .f32) (x3 : FVec Ideal S8 .f32)
    (x4 : FVec Ideal S8x8 .f32) (x5 : FVec Ideal S8 .f32) (x6 : FVec Ideal S8x8 .f32) (x7 : FVec Ideal S8 .f32)
    (e : Fin 4000000) (j : Fin 8) :
    val_main_v37 (F := Ideal) x0 x1 x2 x3 x4 x5 x6 x7 (ix2 e j)
      = Spec.dense (fun a j => x6 (ix2 a j)) (fun j => x7 (ix1 j))
          (Spec.dense (fun a j => x4 (ix2 a j)) (fun j => x5 (ix1 j))
            (Spec.dense (fun a j => x2 (ix2 a j)) (fun j => x3 (ix1 j)) (Spec.feat x0 x1 e))) j := by
  rw [val_main_v37_apply, val_main_v36_apply, val_main_cst_5_apply, val_main_v35_apply, val_main_v34_apply,
    val_main_cst_4_apply, val_main_v33_apply, val_main_v32_apply, val_main_v31_apply, logistic_host, bias30,
    val_main_v28_apply]
  rw [dense_apply]
  congr 2
  refine Finset.sum_congr rfl fun k _ => ?_
  rw [lidx28, ridx28, layer2]

/-- After the fourth layer: the weight of corner `k` of simplex `e`. -/
private theorem weight_eq (x0 : FVec Ideal S2000000x2 .f32) (x1 : IVec S4000000x3 32) (x2 : FVec Ideal S6x8 .f32) (x3 : FVec Ideal S8 .f32)
    (x4 : FVec Ideal S8x8 .f32) (x5 : FVec Ideal S8 .f32) (x6 : FVec Ideal S8x8 .f32) (x7 : FVec Ideal S8 .f32)
    (x8 : FVec Ideal S8x3 .f32) (x9 : FVec Ideal S3 .f32)
    (e : Fin 4000000) (k : Fin 3) :
    val_main_v47 (F := Ideal) x0 x1 x2 x3 x4 x5 x6 x7 x8 x9 (ix2 e k)
      = Spec.weight x0 x1 x2 x3 x4 x5 x6 x7 x8 x9 e k := by
  rw [val_main_v47_apply, val_main_v46_apply, val_main_cst_7_apply, val_main_v45_apply, val_main_v44_apply,
    val_main_cst_6_apply, val_main_v43_apply, val_main_v42_apply, val_main_v41_apply, logistic_host, bias40,
    val_main_v38_apply]
  unfold Spec.weight Spec.mlp
  rw [dense_apply]
  congr 2
  refine Finset.sum_congr rfl fun q _ => ?_
  rw [lidx38, ridx38, layer3]

/-! ## The scatter's positions -/

/-- Flat position `p` of the weights is corner `p % 3` of simplex `p / 3`. -/
private theorem idx48 (p : Fin 12000000) :
    idx_main_v48 (ix1 p) = ix2 (⟨p.val / 3, by omega⟩ : Fin 4000000) (⟨p.val % 3, Nat.mod_lt _ (by decide)⟩ : Fin 3) := by
  funext a; match a with | ⟨0, _⟩ => rfl | ⟨1, _⟩ => rfl

/-- Row `p` of the column of scatter positions is the adjacency word of corner `p % 3` of simplex `p / 3`. -/
private theorem idx51 (x1 : IVec S4000000x3 32) (p : Fin 12000000) :
    val_main_v51 (F := Ideal) x1 (ixP p)
      = x1 (ix2 (⟨p.val / 3, by omega⟩ : Fin 4000000) (⟨p.val % 3, Nat.mod_lt _ (by decide)⟩ : Fin 3)) := by
  rw [val_main_v51_apply, val_main_v49_apply]
  congr 1; funext a; match a with | ⟨0, _⟩ => rfl | ⟨1, _⟩ => rfl

/-! ## The result -/

/-- The result at vertex `n`, opened once. -/
private theorem G_apply (x0 : FVec Ideal S2000000x2 .f32) (x1 : IVec S4000000x3 32) (x2 : FVec Ideal S6x8 .f32) (x3 : FVec Ideal S8 .f32)
    (x4 : FVec Ideal S8x8 .f32) (x5 : FVec Ideal S8 .f32) (x6 : FVec Ideal S8x8 .f32) (x7 : FVec Ideal S8 .f32)
    (x8 : FVec Ideal S8x3 .f32) (x9 : FVec Ideal S3 .f32)
    (n : Fin 2000000) :
    Spec.G x0 x1 x2 x3 x4 x5 x6 x7 x8 x9 (ix1 n)
      = Ideal.ofBits .f32 0x00000000#32
        + ∑ p ∈ Finset.univ.filter (Spec.hits x1 n.val), Spec.weight x0 x1 x2 x3 x4 x5 x6 x7 x8 x9 p.1 p.2 := rfl

/-- The host's accumulating scatter at the extended reals is the exact sum. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

/-- The reference's result array, as the generated stages compose it, is `Spec.G` of the argument arrays. -/
theorem result_eq (x0 : FVec Ideal S2000000x2 .f32) (x1 : IVec S4000000x3 32) (x2 : FVec Ideal S6x8 .f32) (x3 : FVec Ideal S8 .f32)
    (x4 : FVec Ideal S8x8 .f32) (x5 : FVec Ideal S8 .f32) (x6 : FVec Ideal S8x8 .f32) (x7 : FVec Ideal S8 .f32)
    (x8 : FVec Ideal S8x3 .f32) (x9 : FVec Ideal S3 .f32) :
    Cert.ReferenceIdeal.Read.val_main_v52 (F := Ideal) x0 x1 x2 x3 x4 x5 x6 x7 x8 x9
      = Cert.Spec.G x0 x1 x2 x3 x4 x5 x6 x7 x8 x9 := by
  funext i
  obtain ⟨n, rfl⟩ : ∃ n : Fin 2000000, i = ix1 n := ⟨i 0, eq_ix1 i⟩
  rw [G_apply]
  unfold Read.val_main_v52
  rw [scatterAdd_ideal, RowOps.scatterAdd_row1 _ rfl rfl rfl rfl, val_main_v50_apply, val_main_cst_8_apply,
    Ideal.ofBits_def]
  refine congrArg (HAdd.hAdd (Ideal.ofBits .f32 0x00000000#32)) ?_
  refine Eq.trans ?_ (Spec.sum_simplexMajor (Spec.hits x1 n.val)
    (fun e k => Spec.weight x0 x1 x2 x3 x4 x5 x6 x7 x8 x9 e k))
  refine Finset.sum_congr (Finset.filter_congr fun p _ => ?_) fun p _ => ?_
  · show (val_main_v51 (F := Ideal) x1 (ixP p)).toInt = (n.val : Int) ↔ _
    rw [idx51]
    rfl
  · rw [val_main_v48_apply, idx48, weight_eq]

end Cert.ReferenceIdeal.RefValue

end
-- ==== Proof.lean ====
/-
  Two programs over 4,000,000 simplices and 2,000,000 vertices: each gathers the six coordinates of a simplex's three
  vertices, runs a four-layer dense network with the logistic activation on them, and scatter-adds the three resulting
  weights onto the simplex's vertices. The kernel program lays the features out feature-major, runs the network inside a
  pipelined region of 50 grid points on the transposed weight matrices, and scatters corner-major; the reference works
  simplex-major on the host. Over the extended reals both end at `Spec.G`: the gathers read the same vertices, a product
  with a transposed matrix from the left is the product from the right (multiplication commutes), the host's
  `1 / (1 + exp (-x))` is the logistic, and the scatter's sum does not depend on the order in which the corners are
  listed. No operation was rewritten by the idealization, so it preserves the kernel program as it stands. Each program
  runs to its end and leaves its ten argument arrays as launched: no host operation writes one and the region stages
  none.
-/
import proofs.«135624_j69853348102547_1_alg».proof.Defs
import proofs.«135624_j69853348102547_1_alg».proof.Proof.Gen.Kernel
import proofs.«135624_j69853348102547_1_alg».proof.Proof.Gen.KernelIdeal
import proofs.«135624_j69853348102547_1_alg».proof.Proof.Gen.ReferenceIdeal
import proofs.«135624_j69853348102547_1_alg».proof.Proof.Gen.Pre_finite_inputs
import proofs.«135624_j69853348102547_1_alg».proof.Proof.Gen.ReferenceIdeal.Run
import proofs.«135624_j69853348102547_1_alg».proof.Proof.Gen.ReferenceIdeal.Read
import proofs.«135624_j69853348102547_1_alg».proof.Proof.KFrame
import proofs.«135624_j69853348102547_1_alg».proof.Proof.KIFrame
import proofs.«135624_j69853348102547_1_alg».proof.Proof.KIValue
import proofs.«135624_j69853348102547_1_alg».proof.Proof.KITail
import proofs.«135624_j69853348102547_1_alg».proof.Proof.RefRead
import proofs.«135624_j69853348102547_1_alg».proof.Proof.Spec

noncomputable section

namespace Cert.Proof

open Idealize.ShloMosaic Idealize.SL.Sem

/-- The word-level kernel program terminates and leaves its arguments as launched. -/
theorem frame_k : Cert.frame_Kernel := fun m ρ _ =>
  (θ_run Cert.Kernel.defs _ _).mono (fun _ h c =>
    ⟨h c Cert.Kernel.main_arg0 (by simp only [Cert.Kernel.Frame.args, List.mem_cons, true_or, or_true]),
      h c Cert.Kernel.main_arg1 (by simp only [Cert.Kernel.Frame.args, List.mem_cons, true_or, or_true]),
      h c Cert.Kernel.main_arg2 (by simp only [Cert.Kernel.Frame.args, List.mem_cons, true_or, or_true]),
      h c Cert.Kernel.main_arg3 (by simp only [Cert.Kernel.Frame.args, List.mem_cons, true_or, or_true]),
      h c Cert.Kernel.main_arg4 (by simp only [Cert.Kernel.Frame.args, List.mem_cons, true_or, or_true]),
      h c Cert.Kernel.main_arg5 (by simp only [Cert.Kernel.Frame.args, List.mem_cons, true_or, or_true]),
      h c Cert.Kernel.main_arg6 (by simp only [Cert.Kernel.Frame.args, List.mem_cons, true_or, or_true]),
      h c Cert.Kernel.main_arg7 (by simp only [Cert.Kernel.Frame.args, List.mem_cons, true_or, or_true]),
      h c Cert.Kernel.main_arg8 (by simp only [Cert.Kernel.Frame.args, List.mem_cons, true_or, or_true]),
      h c Cert.Kernel.main_arg9 (by simp only [Cert.Kernel.Frame.args, List.mem_cons, true_or, or_true])⟩)
    (Cert.Kernel.Frame.frame (F := Bits) m ρ)

/-- So does the idealized kernel program. -/
theorem frame_ki : Cert.frame_KernelIdeal := fun m ρ _ =>
  (θ_run Cert.KernelIdeal.defs _ _).mono (fun _ h c =>
    ⟨h c Cert.KernelIdeal.main_arg0 (by simp only [Cert.KernelIdeal.Frame.args, List.mem_cons, true_or, or_true]),
      h c Cert.KernelIdeal.main_arg1 (by simp only [Cert.KernelIdeal.Frame.args, List.mem_cons, true_or, or_true]),
      h c Cert.KernelIdeal.main_arg2 (by simp only [Cert.KernelIdeal.Frame.args, List.mem_cons, true_or, or_true]),
      h c Cert.KernelIdeal.main_arg3 (by simp only [Cert.KernelIdeal.Frame.args, List.mem_cons, true_or, or_true]),
      h c Cert.KernelIdeal.main_arg4 (by simp only [Cert.KernelIdeal.Frame.args, List.mem_cons, true_or, or_true]),
      h c Cert.KernelIdeal.main_arg5 (by simp only [Cert.KernelIdeal.Frame.args, List.mem_cons, true_or, or_true]),
      h c Cert.KernelIdeal.main_arg6 (by simp only [Cert.KernelIdeal.Frame.args, List.mem_cons, true_or, or_true]),
      h c Cert.KernelIdeal.main_arg7 (by simp only [Cert.KernelIdeal.Frame.args, List.mem_cons, true_or, or_true]),
      h c Cert.KernelIdeal.main_arg8 (by simp only [Cert.KernelIdeal.Frame.args, List.mem_cons, true_or, or_true]),
      h c Cert.KernelIdeal.main_arg9 (by simp only [Cert.KernelIdeal.Frame.args, List.mem_cons, true_or, or_true])⟩)
    (Cert.KernelIdeal.Frame.frame (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with their result arrays at `Spec.G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun _ h c =>
      ⟨(h c).1,
      (h c).2 Cert.KernelIdeal.main_arg0 (by simp only [Cert.KernelIdeal.Frame.args, List.mem_cons, true_or, or_true]),
      (h c).2 Cert.KernelIdeal.main_arg1 (by simp only [Cert.KernelIdeal.Frame.args, List.mem_cons, true_or, or_true]),
      (h c).2 Cert.KernelIdeal.main_arg2 (by simp only [Cert.KernelIdeal.Frame.args, List.mem_cons, true_or, or_true]),
      (h c).2 Cert.KernelIdeal.main_arg3 (by simp only [Cert.KernelIdeal.Frame.args, List.mem_cons, true_or, or_true]),
      (h c).2 Cert.KernelIdeal.main_arg4 (by simp only [Cert.KernelIdeal.Frame.args, List.mem_cons, true_or, or_true]),
      (h c).2 Cert.KernelIdeal.main_arg5 (by simp only [Cert.KernelIdeal.Frame.args, List.mem_cons, true_or, or_true]),
      (h c).2 Cert.KernelIdeal.main_arg6 (by simp only [Cert.KernelIdeal.Frame.args, List.mem_cons, true_or, or_true]),
      (h c).2 Cert.KernelIdeal.main_arg7 (by simp only [Cert.KernelIdeal.Frame.args, List.mem_cons, true_or, or_true]),
      (h c).2 Cert.KernelIdeal.main_arg8 (by simp only [Cert.KernelIdeal.Frame.args, List.mem_cons, true_or, or_true]),
      (h c).2 Cert.KernelIdeal.main_arg9 (by simp only [Cert.KernelIdeal.Frame.args, List.mem_cons, true_or, or_true])⟩)
      (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v52_eq, Cert.ReferenceIdeal.RefValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
